-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S128x40 .f32) (main_arg9 : FVec F S40 .f32) (main_v33 : IVec S_ 1) : IVec S_ 1 :=
  let main_v34 : FVec F S128x40 .f32 := Host.absf main_arg8
  let main_cst_12 : FVec F S_ .f32 := constant S_ .f32 0x7F800000#32
  let main_v35 : FVec F S128x40 .f32 := broadcastInDim S128x40 ![] bcast_S_S128x40 main_cst_12
  let main_v36 : IVec S128x40 1 := cmpf .olt main_v34 main_v35
  let main_c_13 : IVec S_ 1 := constantI S_ 1 1#1
  let main_v37 : IVec S_ 1 := (fun x v => Host.reduce IntOp.andi x v reducesTo_S128x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x40 .f32) (main_arg9 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x40 .f32) (main_arg9 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S5000x128 : Shape := ⟨2, ![5000, 128]⟩
abbrev S700000x128 : Shape := ⟨2, ![700000, 128]⟩
abbrev S1x128 : Shape := ⟨2, ![1, 128]⟩
abbrev S1x40 : Shape := ⟨2, ![1, 40]⟩
abbrev S100000x40 : Shape := ⟨2, ![100000, 40]⟩
abbrev S5000x40 : Shape := ⟨2, ![5000, 40]⟩

abbrev nBuf : Space → Nat
  | .hbm => 112
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x40, .f32⟩
  | .hbm, ⟨9, _⟩ => ⟨S40, .f32⟩
  | .hbm, ⟨10, _⟩ => ⟨S100000, .i32⟩
  | .hbm, ⟨11, _⟩ => ⟨S1x600000, .i32⟩
  | .hbm, ⟨12, _⟩ => ⟨S600000, .i32⟩
  | .hbm, ⟨13, _⟩ => ⟨S700000, .i32⟩
  | .hbm, ⟨14, _⟩ => ⟨S1x600000, .i32⟩
  | .hbm, ⟨15, _⟩ => ⟨S600000, .i32⟩
  | .hbm, ⟨16, _⟩ => ⟨S700000, .i32⟩
  | .hbm, ⟨17, _⟩ => ⟨S_, .f32⟩
  | .hbm, ⟨18, _⟩ => ⟨S700000, .f32⟩
  | .hbm, ⟨19, _⟩ => ⟨S_, .f32⟩
  | .hbm, ⟨20, _⟩ => ⟨S100000, .f32⟩
  | .hbm, ⟨21, _⟩ => ⟨S700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S700000, .i32⟩
  | .hbm, ⟨36, _⟩ => ⟨S700000, .i1⟩
  | .hbm, ⟨37, _⟩ => ⟨S_, .i32⟩
  | .hbm, ⟨38, _⟩ => ⟨S700000, .i32⟩
  | .hbm, ⟨39, _⟩ => ⟨S700000, .i32⟩
  | .hbm, ⟨40, _⟩ => ⟨S700000, .i32⟩
  | .hbm, ⟨41, _⟩ => ⟨S700000x1, .i32⟩
  | .hbm, ⟨42, _⟩ => ⟨S700000, .f32⟩
  | .hbm, ⟨43, _⟩ => ⟨S_, .i32⟩
  | .hbm, ⟨44, _⟩ => ⟨S700000, .i32⟩
  | .hbm, ⟨45, _⟩ => ⟨S700000, .i1⟩
  | .hbm, ⟨46, _⟩ => ⟨S_, .i32⟩
  | .hbm, ⟨47, _⟩ => ⟨S700000, .i32⟩
  | .hbm, ⟨48, _⟩ => ⟨S700000, .i32⟩
  | .hbm, ⟨49, _⟩ => ⟨S700000, .i32⟩
  | .hbm, ⟨50, _⟩ => ⟨S700000x1, .i32⟩
  | .hbm, ⟨51, _⟩ => ⟨S700000, .f32⟩
  | .hbm, ⟨52, _⟩ => ⟨S700000, .f32⟩
  | .hbm, ⟨53, _⟩ => ⟨S100000x128, .f32⟩
  | .hbm, ⟨54, _⟩ => ⟨S_, .i32⟩
  | .hbm, ⟨55, _⟩ => ⟨S700000, .i32⟩
  | .hbm, ⟨56, _⟩ => ⟨S700000, .i1⟩
  | .hbm, ⟨57, _⟩ => ⟨S_, .i32⟩
  | .hbm, ⟨58, _⟩ => ⟨S700000, .i32⟩
  | .hbm, ⟨59, _⟩ => ⟨S700000, .i32⟩
  | .hbm, ⟨60, _⟩ => ⟨S700000, .i32⟩
  | .hbm, ⟨61, _⟩ => ⟨S700000x1, .i32⟩
  | .hbm, ⟨62, _⟩ => ⟨S700000x128, .f32⟩
  | .hbm, ⟨63, _⟩ => ⟨S700000x1, .f32⟩
  | .hbm, ⟨64, _⟩ => ⟨S700000x128, .f32⟩
  | .hbm, ⟨65, _⟩ => ⟨S700000x128, .f32⟩
  | .hbm, ⟨66, _⟩ => ⟨S_, .f32⟩
  | .hbm, ⟨67, _⟩ => ⟨S100000x128, .f32⟩
  | .hbm, ⟨68, _⟩ => ⟨S700000x1, .i32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S100000x128, .f32⟩
  | .hbm, ⟨73, _⟩ => ⟨S_, .i32⟩
  | .hbm, ⟨74, _⟩ => ⟨S700000, .i32⟩
  | .hbm, ⟨75, _⟩ => ⟨S700000, .i1⟩
  | .hbm, ⟨76, _⟩ => ⟨S_, .i32⟩
  | .hbm, ⟨77, _⟩ => ⟨S700000, .i32⟩
  | .hbm, ⟨78, _⟩ => ⟨S700000, .i32⟩
  | .hbm, ⟨79, _⟩ => ⟨S700000, .i32⟩
  | .hbm, ⟨80, _⟩ => ⟨S700000x1, .i32⟩
  | .hbm, ⟨81, _⟩ => ⟨S700000x128, .f32⟩
  | .hbm, ⟨82, _⟩ => ⟨S700000x1, .f32⟩
  | .hbm, ⟨83, _⟩ => ⟨S700000x128, .f32⟩
  | .hbm, ⟨84, _⟩ => ⟨S700000x128, .f32⟩
  | .hbm, ⟨85, _⟩ => ⟨S_, .f32⟩
  | .hbm, ⟨86, _⟩ => ⟨S100000x128, .f32⟩
  | .hbm, ⟨87, _⟩ => ⟨S700000x1, .i32⟩
  | .hbm, ⟨88, _⟩ => ⟨S100000x128, .f32⟩
  | .hbm, ⟨89, _⟩ => ⟨S1x128, .f32⟩
  | .hbm, ⟨90, _⟩ => ⟨S100000x128, .f32⟩
  | .hbm, ⟨91, _⟩ => ⟨S100000x128, .f32⟩
  | .hbm, ⟨92, _⟩ => ⟨S_, .i32⟩
  | .hbm, ⟨93, _⟩ => ⟨S700000, .i32⟩
  | .hbm, ⟨94, _⟩ => ⟨S700000, .i1⟩
  | .hbm, ⟨95, _⟩ => ⟨S_, .i32⟩
  | .hbm, ⟨96, _⟩ => ⟨S700000, .i32⟩
  | .hbm, ⟨97, _⟩ => ⟨S700000, .i32⟩
  | .hbm, ⟨98, _⟩ => ⟨S700000, .i32⟩
  | .hbm, ⟨99, _⟩ => ⟨S700000x1, .i32⟩
  | .hbm, ⟨100, _⟩ => ⟨S700000x128, .f32⟩
  | .hbm, ⟨101, _⟩ => ⟨S700000x1, .f32⟩
  | .hbm, ⟨102, _⟩ => ⟨S700000x128, .f32⟩
  | .hbm, ⟨103, _⟩ => ⟨S700000x128, .f32⟩
  | .hbm, ⟨104, _⟩ => ⟨S_, .f32⟩
  | .hbm, ⟨105, _⟩ => ⟨S100000x128, .f32⟩
  | .hbm, ⟨106, _⟩ => ⟨S700000x1, .i32⟩
  | .hbm, ⟨107, _⟩ => ⟨S100000x128, .f32⟩
  | .hbm, ⟨108, _⟩ => ⟨S1x128, .f32⟩
  | .hbm, ⟨109, _⟩ => ⟨S100000x128, .f32⟩
  | .hbm, ⟨110, _⟩ => ⟨S1x40, .f32⟩
  | .hbm, ⟨111, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x40, .f32⟩
  | .local _ .vmem, ⟨33, _⟩ => ⟨S1x40, .f32⟩
  | .local _ .vmem, ⟨34, _⟩ => ⟨S5000x40, .f32⟩
  | .local _ .vmem, ⟨35, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_c_11 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_13 : Ref sig .tc := ⟨.hbm, 92, rfl⟩
abbrev main_v65 : Ref sig .tc := ⟨.hbm, 93, rfl⟩
abbrev main_v66 : Ref sig .tc := ⟨.hbm, 94, rfl⟩
abbrev main_c_14 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_15 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg3_0 : Ref sig .tc := ⟨.vmem, 34, rfl⟩
abbrev cc6_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem3_0 : DmaSem sig := 34
abbrev cc6_sem3_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x40 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x40 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x40 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S5000x128_S128x128_S5000x128_1_0_0_1_n_n_wf : DotDims.WF S5000x128 S128x128 S5000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x40.size a ≤ S128x40.size a
  hwx6_1 : ∀ i : grid6.Coords, EltTy.bits .f32 = 32 ∨ (Rect.block (s := S128x40) S128x40.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x40.size a ≤ S1x40.size a
  hwx6_2 : ∀ i : grid6.Coords, EltTy.bits .f32 = 32 ∨ (Rect.block (s := S1x40) S1x40.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x40.size a ≤ S100000x40.size a
  hwx6_3 : ∀ i : grid6.Coords, EltTy.bits .f32 = 32 ∨ (Rect.block (s := S100000x40) S5000x40.size (cc6_transform_3 i) (hinb6_3 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v79) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x40.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v80) S1x40.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v81) S5000x40.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S1x128 : Shape := ⟨2, ![1, 128]⟩
abbrev S100000x40 : Shape := ⟨2, ![100000, 40]⟩
abbrev S1x40 : Shape := ⟨2, ![1, 40]⟩

abbrev nBuf : Space → Nat
  | .hbm => 126
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x40, .f32⟩
  | .hbm, ⟨9, _⟩ => ⟨S40, .f32⟩
  | .hbm, ⟨10, _⟩ => ⟨S100000, .i32⟩
  | .hbm, ⟨11, _⟩ => ⟨S1x600000, .i32⟩
  | .hbm, ⟨12, _⟩ => ⟨S600000, .i32⟩
  | .hbm, ⟨13, _⟩ => ⟨S700000, .i32⟩
  | .hbm, ⟨14, _⟩ => ⟨S1x600000, .i32⟩
  | .hbm, ⟨15, _⟩ => ⟨S600000, .i32⟩
  | .hbm, ⟨16, _⟩ => ⟨S700000, .i32⟩
  | .hbm, ⟨17, _⟩ => ⟨S_, .f32⟩
  | .hbm, ⟨18, _⟩ => ⟨S700000, .f32⟩
  | .hbm, ⟨19, _⟩ => ⟨S_, .f32⟩
  | .hbm, ⟨20, _⟩ => ⟨S100000, .f32⟩
  | .hbm, ⟨21, _⟩ => ⟨S700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S700000, .i32⟩
  | .hbm, ⟨36, _⟩ => ⟨S700000, .i1⟩
  | .hbm, ⟨37, _⟩ => ⟨S_, .i32⟩
  | .hbm, ⟨38, _⟩ => ⟨S700000, .i32⟩
  | .hbm, ⟨39, _⟩ => ⟨S700000, .i32⟩
  | .hbm, ⟨40, _⟩ => ⟨S700000, .i32⟩
  | .hbm, ⟨41, _⟩ => ⟨S700000x1, .i32⟩
  | .hbm, ⟨42, _⟩ => ⟨S700000, .f32⟩
  | .hbm, ⟨43, _⟩ => ⟨S_, .i32⟩
  | .hbm, ⟨44, _⟩ => ⟨S700000, .i32⟩
  | .hbm, ⟨45, _⟩ => ⟨S700000, .i1⟩
  | .hbm, ⟨46, _⟩ => ⟨S_, .i32⟩
  | .hbm, ⟨47, _⟩ => ⟨S700000, .i32⟩
  | .hbm, ⟨48, _⟩ => ⟨S700000, .i32⟩
  | .hbm, ⟨49, _⟩ => ⟨S700000, .i32⟩
  | .hbm, ⟨50, _⟩ => ⟨S700000x1, .i32⟩
  | .hbm, ⟨51, _⟩ => ⟨S700000, .f32⟩
  | .hbm, ⟨52, _⟩ => ⟨S700000, .f32⟩
  | .hbm, ⟨53, _⟩ => ⟨S100000x128, .f32⟩
  | .hbm, ⟨54, _⟩ => ⟨S_, .i32⟩
  | .hbm, ⟨55, _⟩ => ⟨S700000, .i32⟩
  | .hbm, ⟨56, _⟩ => ⟨S700000, .i1⟩
  | .hbm, ⟨57, _⟩ => ⟨S_, .i32⟩
  | .hbm, ⟨58, _⟩ => ⟨S700000, .i32⟩
  | .hbm, ⟨59, _⟩ => ⟨S700000, .i32⟩
  | .hbm, ⟨60, _⟩ => ⟨S700000, .i32⟩
  | .hbm, ⟨61, _⟩ => ⟨S700000x1, .i32⟩
  | .hbm, ⟨62, _⟩ => ⟨S700000x128, .f32⟩
  | .hbm, ⟨63, _⟩ => ⟨S700000x1, .f32⟩
  | .hbm, ⟨64, _⟩ => ⟨S700000x128, .f32⟩
  | .hbm, ⟨65, _⟩ => ⟨S700000x128, .f32⟩
  | .hbm, ⟨66, _⟩ => ⟨S_, .f32⟩
  | .hbm, ⟨67, _⟩ => ⟨S100000x128, .f32⟩
  | .hbm, ⟨68, _⟩ => ⟨S700000x1, .i32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S100000x128, .f32⟩
  | .hbm, ⟨73, _⟩ => ⟨S_, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S_, .i32⟩
  | .hbm, ⟨78, _⟩ => ⟨S700000, .i32⟩
  | .hbm, ⟨79, _⟩ => ⟨S700000, .i1⟩
  | .hbm, ⟨80, _⟩ => ⟨S_, .i32⟩
  | .hbm, ⟨81, _⟩ => ⟨S700000, .i32⟩
  | .hbm, ⟨82, _⟩ => ⟨S700000, .i32⟩
  | .hbm, ⟨83, _⟩ => ⟨S700000, .i32⟩
  | .hbm, ⟨84, _⟩ => ⟨S700000x1, .i32⟩
  | .hbm, ⟨85, _⟩ => ⟨S700000x128, .f32⟩
  | .hbm, ⟨86, _⟩ => ⟨S700000x1, .f32⟩
  | .hbm, ⟨87, _⟩ => ⟨S700000x128, .f32⟩
  | .hbm, ⟨88, _⟩ => ⟨S700000x128, .f32⟩
  | .hbm, ⟨89, _⟩ => ⟨S_, .f32⟩
  | .hbm, ⟨90, _⟩ => ⟨S100000x128, .f32⟩
  | .hbm, ⟨91, _⟩ => ⟨S700000x1, .i32⟩
  | .hbm, ⟨92, _⟩ => ⟨S100000x128, .f32⟩
  | .hbm, ⟨93, _⟩ => ⟨S1x128, .f32⟩
  | .hbm, ⟨94, _⟩ => ⟨S100000x128, .f32⟩
  | .hbm, ⟨95, _⟩ => ⟨S100000x128, .f32⟩
  | .hbm, ⟨96, _⟩ => ⟨S_, .f32⟩
  | .hbm, ⟨97, _⟩ => ⟨S100000x128, .f32⟩
  | .hbm, ⟨98, _⟩ => ⟨S100000x128, .f32⟩
  | .hbm, ⟨99, _⟩ => ⟨S100000x128, .f32⟩
  | .hbm, ⟨100, _⟩ => ⟨S_, .i32⟩
  | .hbm, ⟨101, _⟩ => ⟨S700000, .i32⟩
  | .hbm, ⟨102, _⟩ => ⟨S700000, .i1⟩
  | .hbm, ⟨103, _⟩ => ⟨S_, .i32⟩
  | .hbm, ⟨104, _⟩ => ⟨S700000, .i32⟩
  | .hbm, ⟨105, _⟩ => ⟨S700000, .i32⟩
  | .hbm, ⟨106, _⟩ => ⟨S700000, .i32⟩
  | .hbm, ⟨107, _⟩ => ⟨S700000x1, .i32⟩
  | .hbm, ⟨108, _⟩ => ⟨S700000x128, .f32⟩
  | .hbm, ⟨109, _⟩ => ⟨S700000x1, .f32⟩
  | .hbm, ⟨110, _⟩ => ⟨S700000x128, .f32⟩
  | .hbm, ⟨111, _⟩ => ⟨S700000x128, .f32⟩
  | .hbm, ⟨112, _⟩ => ⟨S_, .f32⟩
  | .hbm, ⟨113, _⟩ => ⟨S100000x128, .f32⟩
  | .hbm, ⟨114, _⟩ => ⟨S700000x1, .i32⟩
  | .hbm, ⟨115, _⟩ => ⟨S100000x128, .f32⟩
  | .hbm, ⟨116, _⟩ => ⟨S1x128, .f32⟩
  | .hbm, ⟨117, _⟩ => ⟨S100000x128, .f32⟩
  | .hbm, ⟨118, _⟩ => ⟨S100000x128, .f32⟩
  | .hbm, ⟨119, _⟩ => ⟨S_, .f32⟩
  | .hbm, ⟨120, _⟩ => ⟨S100000x128, .f32⟩
  | .hbm, ⟨121, _⟩ => ⟨S100000x128, .f32⟩
  | .hbm, ⟨122, _⟩ => ⟨S100000x40, .f32⟩
  | .hbm, ⟨123, _⟩ => ⟨S1x40, .f32⟩
  | .hbm, ⟨124, _⟩ => ⟨S100000x40, .f32⟩
  | .hbm, ⟨125, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_c_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_12 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_call2_cst : Ref sig .tc := ⟨.hbm, 96, rfl⟩
abbrev main_call2_v0 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_c_14 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_15 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_call3_cst : Ref sig .tc := ⟨.hbm, 119, rfl⟩
abbrev main_call3_v0 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S100000x128_S128x128_S100000x128_1_0_0_1_n_n_wf : DotDims.WF S100000x128 S128x128 S100000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S100000x128_S128x40_S100000x40_1_0_0_1_n_n_wf : DotDims.WF S100000x128 S128x40 S100000x40 [1] [0] [0] [1] [] []

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.Graph.lean ====
/-
  The pieces of a graph-convolution layer that the two programs share, each as one function.

  `aggregate s d w h`: every message `e` takes row `s e` of `h` (a negative index first moved up by the number of
  nodes, as the gather's index normalisation does), scales it by the edge's coefficient `w e`, and the messages are
  summed into the rows `d e` of a zero array. Both programs apply exactly this chain of host operations, three times,
  to the projected features; the certificate never opens it.
  `activate a b`: the bias row `b` added to every row of `a`, then the maximum with zero.
  `project h w` and `classify h w b`: the matrix products of a layer and of the output head, the latter with its bias.
-/
import proofs.«168235_j5506148074002_1_alg».proof.Proof.Gen.ReferenceIdeal

noncomputable section

namespace Cert.Graph

open Cert.ReferenceIdeal Cert.ReferenceIdeal.Facts₀ Idealize.ShloMosaic

variable {F : FTy → Type} [FloatOps F]

def aggregate (s d : (⟨S700000, .i32⟩ : BufTy).Contents (Elt F)) (w : (⟨S700000, .f32⟩ : BufTy).Contents (Elt F))
    (h : (⟨S100000x128, .f32⟩ : BufTy).Contents (Elt F)) : (⟨S100000x128, .f32⟩ : BufTy).Contents (Elt F) :=
  Host.scatterAdd scatter_S100000x128_S700000x1_S700000x128_1_0_0_1
    (broadcastInDim S100000x128 ![] bcast_S_S100000x128 (constant S_ .f32 0x00000000#32))
    (broadcastInDim S700000x1 ![0] bcast_S700000_S700000x1_0 d)
    (mulf
      (Host.gather gather_S100000x128_S700000x1_S700000x128_1_0_n_n_0_1_1128 h
        (broadcastInDim S700000x1 ![0] bcast_S700000_S700000x1_0
          (select (cmpi .slt s (broadcastInDim S700000 ![] bcast_S_S700000 (constantI S_ 32 0#32)))
            (addi s (broadcastInDim S700000 ![] bcast_S_S700000 (constantI S_ 32 100000#32))) s)))
      (broadcastInDim S700000x128 ![0, 1] bcast_S700000x1_S700000x128_0_1
        (broadcastInDim S700000x1 ![0] bcast_S700000_S700000x1_0 w)))

def activate (a : (⟨S100000x128, .f32⟩ : BufTy).Contents (Elt F)) (b : (⟨S128, .f32⟩ : BufTy).Contents (Elt F)) :
    (⟨S100000x128, .f32⟩ : BufTy).Contents (Elt F) :=
  maximumf
    (addf a (broadcastInDim S100000x128 ![0, 1] bcast_S1x128_S100000x128_0_1 (broadcastInDim S1x128 ![1] bcast_S128_S1x128_1 b)))
    (broadcastInDim S100000x128 ![] bcast_S_S100000x128 (constant S_ .f32 0x00000000#32))

def project (h : (⟨S100000x128, .f32⟩ : BufTy).Contents (Elt F)) (w : (⟨S128x128, .f32⟩ : BufTy).Contents (Elt F)) :
    (⟨S100000x128, .f32⟩ : BufTy).Contents (Elt F) :=
  Host.dotGeneral dot_S100000x128_S128x128_S100000x128_1_0_0_1_n_n none h w

def classify (h : (⟨S100000x128, .f32⟩ : BufTy).Contents (Elt F)) (w : (⟨S128x40, .f32⟩ : BufTy).Contents (Elt F))
    (b : (⟨S40, .f32⟩ : BufTy).Contents (Elt F)) : (⟨S100000x40, .f32⟩ : BufTy).Contents (Elt F) :=
  addf (Host.dotGeneral dot_S100000x128_S128x40_S100000x40_1_0_0_1_n_n none h w)
    (broadcastInDim S100000x40 ![0, 1] bcast_S1x40_S100000x40_0_1 (broadcastInDim S1x40 ![1] bcast_S40_S1x40_1 b))

/-- The whole network over the three index-side arrays `s`, `d`, `n` (sources, destinations, edge coefficients): three
    layers of project, aggregate, activate, then the output head. -/
def network (s d : (⟨S700000, .i32⟩ : BufTy).Contents (Elt F)) (n : (⟨S700000, .f32⟩ : BufTy).Contents (Elt F))
    (x : (⟨S100000x128, .f32⟩ : BufTy).Contents (Elt F))
    (w0 : (⟨S128x128, .f32⟩ : BufTy).Contents (Elt F)) (b0 : (⟨S128, .f32⟩ : BufTy).Contents (Elt F))
    (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F))
    (wl : (⟨S128x40, .f32⟩ : BufTy).Contents (Elt F)) (bl : (⟨S40, .f32⟩ : BufTy).Contents (Elt F)) :
    (⟨S100000x40, .f32⟩ : BufTy).Contents (Elt F) :=
  classify
    (activate (aggregate s d n (project
      (activate (aggregate s d n (project
        (activate (aggregate s d n (project x w0)) b0) w1)) b1) w2)) b2) wl bl

end Cert.Graph

end
-- ==== Proof.KernelHost.lean ====
/-
  The kernel program's host side, for any float family.

  Before the first region the program computes, from the edge list alone, the three arrays every layer reads: the
  source and destination node of every message (the edges, then one self-loop per node) and the message's coefficient
  (the inverse square roots of the two end nodes' degrees, multiplied). These are the very operations the reference
  applies, so the arrays are the reference's own stages of the edge list. Between the regions each layer gathers the
  projected rows, scales and scatters them (`aggregate`) and reshapes the layer's bias to one row. Nothing else is
  written: an argument array or one of the three index-side arrays holds at every later boundary what it held when
  the first region was entered.
-/
import proofs.«168235_j5506148074002_1_alg».proof.Proof.Gen.KernelIdeal.Frame
import proofs.«168235_j5506148074002_1_alg».proof.Proof.Graph
import proofs.«168235_j5506148074002_1_alg».proof.Proof.RefRead
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem
open Idealize.ShloMosaic.StableHlo
open Cert.ReferenceIdeal.ReadP (val_main_v3 val_main_v6 val_main_v31)

variable {F : FTy → Type} [FloatOps F]
variable (m : (ℓ : Loc nD τ sig) → Buf (Elt F) ℓ) (ρ : Dev nD → PrngReg)

/-- No operation of the stretch writes the buffer, so it keeps its contents across the stretch. -/
macro "host_keeps " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## Before the first region -/

/-- The memory when the first region is entered: the three opening stretches applied in a row to the launch memory. -/
theorem entry_eq (c : Dev nD) :
    W3 m ρ c = StableHlo.after (hostOps0 ++ (hostOps0_1 ++ hostOps0_2)) (W0 m ρ c) := by
  rw [StableHlo.after_append, StableHlo.after_append]

set_option maxHeartbeats 8000000 in
/-- The source node of every message. -/
theorem sources (c : Dev nD) :
    W3 m ρ c (Proc.devRef .tc main_v3) = val_main_v3 (F := F) (m ((c : Thread nD τ).loc main_arg1)) := by
  rw [entry_eq]
  simp only [hostOps0, hostOps0_1, hostOps0_2, List.cons_append, List.nil_append]
  after_results_simp
  rfl

set_option maxHeartbeats 8000000 in
/-- The destination node of every message. -/
theorem destinations (c : Dev nD) :
    W3 m ρ c (Proc.devRef .tc main_v6) = val_main_v6 (F := F) (m ((c : Thread nD τ).loc main_arg1)) := by
  rw [entry_eq]
  simp only [hostOps0, hostOps0_1, hostOps0_2, List.cons_append, List.nil_append]
  after_results_simp
  rfl

set_option maxHeartbeats 8000000 in
/-- The coefficient of every message. -/
theorem coefficients (c : Dev nD) :
    W3 m ρ c (Proc.devRef .tc main_v31) = val_main_v31 (F := F) (m ((c : Thread nD τ).loc main_arg1)) := by
  rw [entry_eq]
  simp only [hostOps0, hostOps0_1, hostOps0_2, List.cons_append, List.nil_append]
  after_results_simp
  rfl

/-- An argument array the opening stretches only read holds at the first region's entry what it held at launch. -/
theorem arg_at_entry (c : Dev nD) (b : Ref sig .tc) (hb : b ∈ ([main_arg0, main_arg2, main_arg3, main_arg4, main_arg5, main_arg6, main_arg7, main_arg8, main_arg9] : List (Ref sig .tc))) :
    W3 m ρ c (Proc.devRef .tc b) = m ((c : Thread nD τ).loc b) := by
  simp only [List.mem_cons, List.not_mem_nil, or_false] at hb
  have h3 : W3 m ρ c (Proc.devRef .tc b) = W2 m ρ c (Proc.devRef .tc b) := by
    rcases hb with rfl | rfl | rfl | rfl | rfl | rfl | rfl | rfl | rfl <;> host_keeps hostOps0_2
  have h2 : W2 m ρ c (Proc.devRef .tc b) = W1 m ρ c (Proc.devRef .tc b) := by
    rcases hb with rfl | rfl | rfl | rfl | rfl | rfl | rfl | rfl | rfl <;> host_keeps hostOps0_1
  have h1 : W1 m ρ c (Proc.devRef .tc b) = W0 m ρ c (Proc.devRef .tc b) := by
    rcases hb with rfl | rfl | rfl | rfl | rfl | rfl | rfl | rfl | rfl <;> host_keeps hostOps0
  exact h3.trans (h2.trans (h1.trans rfl))

/-! ## Between the regions -/

set_option maxHeartbeats 4000000 in
/-- Layer 1: the projected rows gathered along the messages, scaled, and summed into their destination rows. -/
theorem aggregate1 (c : Dev nD) : W5 m ρ c (Proc.devRef .tc main_v45)
    = Cert.Graph.aggregate (W4 m ρ c (Proc.devRef .tc main_v3)) (W4 m ρ c (Proc.devRef .tc main_v6))
        (W4 m ρ c (Proc.devRef .tc main_v31)) (W4 m ρ c (Proc.devRef .tc main_v32)) := by
  show StableHlo.after hostOps1 (W4 m ρ c) (Proc.devRef .tc main_v45) = _
  after_results_simp
  rfl

/-- Layer 1's bias as one row. -/
theorem bias1 (c : Dev nD) : W5 m ρ c (Proc.devRef .tc main_v46)
    = shapeCast S1x128 (W4 m ρ c (Proc.devRef .tc main_arg3)) Facts₀.shapeCasts_S128_S1x128 := by
  show StableHlo.after hostOps1 (W4 m ρ c) (Proc.devRef .tc main_v46) = _
  after_results
  rfl

set_option maxHeartbeats 4000000 in
/-- Layer 2: the projected rows gathered along the messages, scaled, and summed into their destination rows. -/
theorem aggregate2 (c : Dev nD) : W8 m ρ c (Proc.devRef .tc main_v61)
    = Cert.Graph.aggregate (W7 m ρ c (Proc.devRef .tc main_v3)) (W7 m ρ c (Proc.devRef .tc main_v6))
        (W7 m ρ c (Proc.devRef .tc main_v31)) (W7 m ρ c (Proc.devRef .tc main_v48)) := by
  show StableHlo.after hostOps3 (W7 m ρ c) (Proc.devRef .tc main_v61) = _
  after_results_simp
  rfl

/-- Layer 2's bias as one row. -/
theorem bias2 (c : Dev nD) : W8 m ρ c (Proc.devRef .tc main_v62)
    = shapeCast S1x128 (W7 m ρ c (Proc.devRef .tc main_arg5)) Facts₀.shapeCasts_S128_S1x128 := by
  show StableHlo.after hostOps3 (W7 m ρ c) (Proc.devRef .tc main_v62) = _
  after_results
  rfl

set_option maxHeartbeats 4000000 in
/-- Layer 3: the projected rows gathered along the messages, scaled, and summed into their destination rows. -/
theorem aggregate3 (c : Dev nD) : W11 m ρ c (Proc.devRef .tc main_v77)
    = Cert.Graph.aggregate (W10 m ρ c (Proc.devRef .tc main_v3)) (W10 m ρ c (Proc.devRef .tc main_v6))
        (W10 m ρ c (Proc.devRef .tc main_v31)) (W10 m ρ c (Proc.devRef .tc main_v64)) := by
  show StableHlo.after hostOps5 (W10 m ρ c) (Proc.devRef .tc main_v77) = _
  after_results_simp
  rfl

/-- Layer 3's bias as one row. -/
theorem bias3 (c : Dev nD) : W11 m ρ c (Proc.devRef .tc main_v78)
    = shapeCast S1x128 (W10 m ρ c (Proc.devRef .tc main_arg7)) Facts₀.shapeCasts_S128_S1x128 := by
  show StableHlo.after hostOps5 (W10 m ρ c) (Proc.devRef .tc main_v78) = _
  after_results
  rfl

/-- The classifier's bias as one row. -/
theorem bias_head (c : Dev nD) : W13 m ρ c (Proc.devRef .tc main_v80)
    = shapeCast S1x40 (W12 m ρ c (Proc.devRef .tc main_arg9)) Facts₀.shapeCasts_S40_S1x40 := by
  show StableHlo.after hostOps6 (W12 m ρ c) (Proc.devRef .tc main_v80) = _
  after_results
  rfl

/-! ## What each segment leaves alone

  A region writes only its result array and a stretch only the buffers its operations name, so across each segment
  the listed buffers (the arguments still to be read, the three index-side arrays) keep their contents. -/

theorem step4 (c : Dev nD) (b : Ref sig .tc) (hb : b ∈ ([main_arg3, main_arg4, main_arg5, main_arg6, main_arg7, main_arg8, main_arg9, main_v3, main_v6, main_v31] : List (Ref sig .tc))) :
    W4 m ρ c (Proc.devRef .tc b) = W3 m ρ c (Proc.devRef .tc b) :=
  W4_of_ne m ρ c b ((by decide : ∀ b ∈ ([main_arg3, main_arg4, main_arg5, main_arg6, main_arg7, main_arg8, main_arg9, main_v3, main_v6, main_v31] : List (Ref sig .tc)), ∀ w, Pipeline.arrRef spec0 w ≠ b) b hb)

theorem step5 (c : Dev nD) (b : Ref sig .tc) (hb : b ∈ ([main_arg4, main_arg5, main_arg6, main_arg7, main_arg8, main_arg9, main_v3, main_v6, main_v31] : List (Ref sig .tc))) :
    W5 m ρ c (Proc.devRef .tc b) = W4 m ρ c (Proc.devRef .tc b) := by
  simp only [List.mem_cons, List.not_mem_nil, or_false] at hb
  rcases hb with rfl | rfl | rfl | rfl | rfl | rfl | rfl | rfl | rfl <;> host_keeps hostOps1

theorem step6 (c : Dev nD) (b : Ref sig .tc) (hb : b ∈ ([main_arg4, main_arg5, main_arg6, main_arg7, main_arg8, main_arg9, main_v3, main_v6, main_v31] : List (Ref sig .tc))) :
    W6 m ρ c (Proc.devRef .tc b) = W5 m ρ c (Proc.devRef .tc b) :=
  W6_of_ne m ρ c b ((by decide : ∀ b ∈ ([main_arg4, main_arg5, main_arg6, main_arg7, main_arg8, main_arg9, main_v3, main_v6, main_v31] : List (Ref sig .tc)), ∀ w, Pipeline.arrRef spec1 w ≠ b) b hb)

theorem step7 (c : Dev nD) (b : Ref sig .tc) (hb : b ∈ ([main_arg5, main_arg6, main_arg7, main_arg8, main_arg9, main_v3, main_v6, main_v31] : List (Ref sig .tc))) :
    W7 m ρ c (Proc.devRef .tc b) = W6 m ρ c (Proc.devRef .tc b) :=
  W7_of_ne m ρ c b ((by decide : ∀ b ∈ ([main_arg5, main_arg6, main_arg7, main_arg8, main_arg9, main_v3, main_v6, main_v31] : List (Ref sig .tc)), ∀ w, Pipeline.arrRef spec2 w ≠ b) b hb)

theorem step8 (c : Dev nD) (b : Ref sig .tc) (hb : b ∈ ([main_arg6, main_arg7, main_arg8, main_arg9, main_v3, main_v6, main_v31] : List (Ref sig .tc))) :
    W8 m ρ c (Proc.devRef .tc b) = W7 m ρ c (Proc.devRef .tc b) := by
  simp only [List.mem_cons, List.not_mem_nil, or_false] at hb
  rcases hb with rfl | rfl | rfl | rfl | rfl | rfl | rfl <;> host_keeps hostOps3

theorem step9 (c : Dev nD) (b : Ref sig .tc) (hb : b ∈ ([main_arg6, main_arg7, main_arg8, main_arg9, main_v3, main_v6, main_v31] : List (Ref sig .tc))) :
    W9 m ρ c (Proc.devRef .tc b) = W8 m ρ c (Proc.devRef .tc b) :=
  W9_of_ne m ρ c b ((by decide : ∀ b ∈ ([main_arg6, main_arg7, main_arg8, main_arg9, main_v3, main_v6, main_v31] : List (Ref sig .tc)), ∀ w, Pipeline.arrRef spec3 w ≠ b) b hb)

theorem step10 (c : Dev nD) (b : Ref sig .tc) (hb : b ∈ ([main_arg7, main_arg8, main_arg9, main_v3, main_v6, main_v31] : List (Ref sig .tc))) :
    W10 m ρ c (Proc.devRef .tc b) = W9 m ρ c (Proc.devRef .tc b) :=
  W10_of_ne m ρ c b ((by decide : ∀ b ∈ ([main_arg7, main_arg8, main_arg9, main_v3, main_v6, main_v31] : List (Ref sig .tc)), ∀ w, Pipeline.arrRef spec4 w ≠ b) b hb)

theorem step11 (c : Dev nD) (b : Ref sig .tc) (hb : b ∈ ([main_arg8, main_arg9] : List (Ref sig .tc))) :
    W11 m ρ c (Proc.devRef .tc b) = W10 m ρ c (Proc.devRef .tc b) := by
  simp only [List.mem_cons, List.not_mem_nil, or_false] at hb
  rcases hb with rfl | rfl <;> host_keeps hostOps5

theorem step12 (c : Dev nD) (b : Ref sig .tc) (hb : b ∈ ([main_arg8, main_arg9] : List (Ref sig .tc))) :
    W12 m ρ c (Proc.devRef .tc b) = W11 m ρ c (Proc.devRef .tc b) :=
  W12_of_ne m ρ c b ((by decide : ∀ b ∈ ([main_arg8, main_arg9] : List (Ref sig .tc)), ∀ w, Pipeline.arrRef spec5 w ≠ b) b hb)

theorem step13 (c : Dev nD) (b : Ref sig .tc) (hb : b ∈ ([main_arg8, main_v79] : List (Ref sig .tc))) :
    W13 m ρ c (Proc.devRef .tc b) = W12 m ρ c (Proc.devRef .tc b) := by
  simp only [List.mem_cons, List.not_mem_nil, or_false] at hb
  rcases hb with rfl | rfl <;> host_keeps hostOps6

end Cert.KernelIdeal.Host

end
-- ==== Proof.LibRowLinear.lean ====
/-
  A matrix product read at an index, over any extents, and a quotient by a row-wise divisor against the product with its
  reciprocal.

  For a rank-2 contraction `[N, K] · [K, M] → [N, M]` (the left operand's axis 1 against the right operand's axis 0, no
  batch axes) the entry `(n, c)` of the product is `∑ k, l (n, k) · r (k, c)`, the sum over the `K` positions of the one
  contracted axis. It is stated for any dimension record with those dimension numbers (each hypothesis is closed by
  `rfl` at a literal record), so one statement serves products of different heights and widths, a host's
  `dot_general` and a matrix unit's product into a zero accumulator alike. In that form row `n` of the product depends
  on row `n` of the left operand only: the product of a block of rows is that block of rows of the product.

  On the extended reals `x / y` is `x · y⁻¹` whenever `y ≠ 0`, and `1 / y` is then `y⁻¹`; so dividing by a number that
  is at least one is multiplying by its reciprocal, at the infinities too.
-/
import Idealize.ShloMosaic.PureOps.Ideal.Laws
import Idealize.ShloMosaic.Lib.ValueIdx

noncomputable section

namespace Idealize.ShloMosaic.RowLinear

open Idealize.ShloMosaic Idealize.ShloMosaic.ValueIdx

section Record
variable {N K M : Nat}

/-- The literal record of the row-by-column product's dimension numbers. -/
private abbrev ddims (wf : DotDims.WF ⟨2, ![N, K]⟩ ⟨2, ![K, M]⟩ ⟨2, ![N, M]⟩ [1] [0] [0] [1] [] []) :
    DotDims ⟨2, ![N, K]⟩ ⟨2, ![K, M]⟩ ⟨2, ![N, M]⟩ :=
  { lhsContracting := [1], rhsContracting := [0], lhsNonContracting := [0], rhsNonContracting := [1],
    lhsBatch := [], rhsBatch := [], wf := wf }

variable (wf : DotDims.WF ⟨2, ![N, K]⟩ ⟨2, ![K, M]⟩ ⟨2, ![N, M]⟩ [1] [0] [0] [1] [] [])
  (j : (⟨2, ![N, M]⟩ : Shape).Idx) (k : (ddims wf).contr.Idx)

/-- Reading a coordinate of the result index at two spellings of one position. -/
private theorem coord_congr (p q : Nat) (hp : p < 2) (hq : q < 2) (h : p = q) :
    (j ⟨p, hp⟩).val = (j ⟨q, hq⟩).val := by subst h; rfl

/-- The left operand's row is the result's row. -/
private theorem lhs_axis0 : ((ddims wf).lhsIdx j k 0).val = (j 0).val := by
  unfold DotDims.lhsIdx
  rw [dif_neg List.not_mem_nil, dif_pos (show (0 : Fin 2) ∈ [(0 : Fin 2)] from List.mem_singleton.mpr rfl)]
  simp only [Fin.val_cast]
  exact coord_congr j _ _ _ _ (by simp)

/-- The left operand's column is the contraction position. -/
private theorem lhs_axis1 : ((ddims wf).lhsIdx j k 1).val = (k ⟨0, by rw [(ddims wf).rank_contr]; exact Nat.one_pos⟩).val :=
  (ddims wf).lhsIdx_val_of_single (cl := 1) rfl j k

/-- The right operand's row is the contraction position. -/
private theorem rhs_axis0 : ((ddims wf).rhsIdx j k 0).val = (k ⟨0, by rw [(ddims wf).rank_contr]; exact Nat.one_pos⟩).val :=
  (ddims wf).rhsIdx_val_of_single (cr := 0) rfl j k

/-- The right operand's column is the result's column. -/
private theorem rhs_axis1 : ((ddims wf).rhsIdx j k 1).val = (j 1).val := by
  unfold DotDims.rhsIdx
  rw [dif_neg List.not_mem_nil, dif_pos (show (1 : Fin 2) ∈ [(1 : Fin 2)] from List.mem_singleton.mpr rfl)]
  simp only [Fin.val_cast]
  exact coord_congr j _ _ _ _ (by simp)

end Record

/-- **The contraction's sum at `(n, c)`**: over the `K` positions of the contracted axis, the left operand's row `n`
    against the right operand's column `c`. -/
theorem contraction_sum {N K M : Nat} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![N, K]⟩ : Shape).Idx → EReal) (r : (⟨2, ![K, M]⟩ : Shape).Idx → EReal) (n : Fin N) (c : Fin M) :
    ∑ k : d.contr.Idx, l (d.lhsIdx (ix2 n c) k) * r (d.rhsIdx (ix2 n c) k)
      = ∑ k : Fin K, l (ix2 n k) * r (ix2 k c) := by
  obtain ⟨lc, rc, ln, rn, lb, rb, wf⟩ := d
  simp only at hlc hrc hln hrn hlb hrb
  subst hlc hrc hln hrn hlb hrb
  rw [← Equiv.sum_comp (contrEquiv1 (ddims wf) K rfl rfl).symm]
  refine Finset.sum_congr rfl fun k _ => ?_
  have hk := contrEquiv1_symm_val (ddims wf) K rfl rfl k
  have el : (ddims wf).lhsIdx (ix2 n c) ((contrEquiv1 (ddims wf) K rfl rfl).symm k) = ix2 n k := by
    funext a; refine Fin.ext ?_
    match a with
    | ⟨0, _⟩ => exact lhs_axis0 wf _ _
    | ⟨1, _⟩ => exact (lhs_axis1 wf _ _).trans hk
  have er : (ddims wf).rhsIdx (ix2 n c) ((contrEquiv1 (ddims wf) K rfl rfl).symm k) = ix2 k c := by
    funext a; refine Fin.ext ?_
    match a with
    | ⟨0, _⟩ => exact (rhs_axis0 wf _ _).trans hk
    | ⟨1, _⟩ => exact rhs_axis1 wf _ _
  rw [el, er]

/-- **A host's `dot_general` at `(n, c)`**, at the ideal values. -/
theorem dotGeneral_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![N, K]⟩ φ₁) (r : FVec Ideal ⟨2, ![K, M]⟩ φ₂)
    (n : Fin N) (c : Fin M) :
    Host.dotGeneral d prec l r (ix2 n c) = ∑ k : Fin K, l (ix2 n k) * r (ix2 k c) := by
  show FloatOps.dotGeneral d prec _ l r (ix2 n c) = _
  rw [Ideal.dotGeneral_apply]
  exact contraction_sum d hlc hrc hln hrn hlb hrb l r n c

/-- **A matrix unit's product into a zero accumulator at `(n, c)`**, at the ideal values. -/
theorem matmul_zero_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![N, K]⟩ φ₁) (r : FVec Ideal ⟨2, ![K, M]⟩ φ₂)
    (n : Fin N) (c : Fin M) :
    matmul d prec l r (constant ⟨2, ![N, M]⟩ .f32 0x00000000#32) (ix2 n c) = ∑ k : Fin K, l (ix2 n k) * r (ix2 k c) := by
  show FloatOps.matmul d prec l r (constant ⟨2, ![N, M]⟩ .f32 0x00000000#32) (ix2 n c) = _
  rw [Ideal.matmul_constant_zero_apply]
  exact contraction_sum d hlc hrc hln hrn hlb hrb l r n c

/-- **The product of two matrices**, index by index: entry `(n, c)` is row `n` of `x` against column `c` of `w`. -/
def product {N K M : Nat} (x : (⟨2, ![N, K]⟩ : Shape).Idx → EReal) (w : (⟨2, ![K, M]⟩ : Shape).Idx → EReal) :
    (⟨2, ![N, M]⟩ : Shape).Idx → EReal :=
  fun i => ∑ k : Fin K, x (ix2 (i 0 : Fin N) k) * w (ix2 k (i 1 : Fin M))

theorem product_apply {N K M : Nat} (x : (⟨2, ![N, K]⟩ : Shape).Idx → EReal) (w : (⟨2, ![K, M]⟩ : Shape).Idx → EReal)
    (n : Fin N) (c : Fin M) : product x w (ix2 n c) = ∑ k : Fin K, x (ix2 n k) * w (ix2 k c) := rfl

/-- A host's `dot_general` with these dimension numbers is the product. -/
theorem dotGeneral_eq_product {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![N, K]⟩ φ₁) (r : FVec Ideal ⟨2, ![K, M]⟩ φ₂) :
    Host.dotGeneral d prec l r = product l r := by
  funext i
  obtain ⟨n, c, rfl⟩ : ∃ (n : Fin N) (c : Fin M), i = ix2 n c := ⟨i 0, i 1, eq_ix2 i⟩
  exact dotGeneral_apply d hlc hrc hln hrn hlb hrb prec l r n c

/-- A matrix unit's product into a zero accumulator, with these dimension numbers, is the product. -/
theorem matmul_zero_eq_product {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![N, K]⟩ φ₁) (r : FVec Ideal ⟨2, ![K, M]⟩ φ₂) :
    matmul d prec l r (constant ⟨2, ![N, M]⟩ .f32 0x00000000#32) = product l r := by
  funext i
  obtain ⟨n, c, rfl⟩ : ∃ (n : Fin N) (c : Fin M), i = ix2 n c := ⟨i 0, i 1, eq_ix2 i⟩
  exact matmul_zero_apply d hlc hrc hln hrn hlb hrb prec l r n c

/-- **A block of rows**: where row `p` of `xb` is row `n` of `x`, row `p` of `xb · w` is row `n` of `x · w`. -/
theorem product_of_rows {P N K M : Nat} (xb : (⟨2, ![P, K]⟩ : Shape).Idx → EReal) (x : (⟨2, ![N, K]⟩ : Shape).Idx → EReal)
    (w : (⟨2, ![K, M]⟩ : Shape).Idx → EReal) (p : Fin P) (n : Fin N) (c : Fin M)
    (h : ∀ k : Fin K, xb (ix2 p k) = x (ix2 n k)) :
    product xb w (ix2 p c) = product x w (ix2 n c) := by
  rw [product_apply, product_apply]
  exact Finset.sum_congr rfl fun k _ => by rw [h k]

/-- The word `0x3F800000` denotes the number one. -/
theorem ofBits_one_f32 : Ideal.ofBits .f32 0x3F800000#32 = 1 := by
  simp [Ideal.ofBits, Ideal.ieee, -EReal.coe_mul]; norm_num

/-- **Dividing by a number that is at least one is multiplying by its reciprocal**: with `y = max c 1`,
    `x · (1 / y) = x / y` on every pair of extended reals (`y` is not zero, so both sides are `x · y⁻¹`). -/
theorem mul_one_div_max_one (x c : EReal) :
    x * Ideal.div 1 (max c 1) = Ideal.div x (max c 1) := by
  have hy : max c 1 ≠ 0 := ne_of_gt (lt_of_lt_of_le zero_lt_one (le_max_right c 1))
  rw [Ideal.div, Ideal.div, if_neg hy, if_neg hy, one_mul]

end Idealize.ShloMosaic.RowLinear

end
-- ==== Proof.Payloads.lean ====
/-
  What each projection kernel's body stores, as a matrix product: the body narrows its two loaded blocks to a shorter
  float format (the identity at the ideal values; the later layers first cast the left block to the shape it already
  has) and multiplies them into a zero accumulator, which at the ideal values is the exact row-by-column sum.
-/
import proofs.«168235_j5506148074002_1_alg».proof.Proof.Gen.KernelIdeal.Skeleton
import proofs.«168235_j5506148074002_1_alg».proof.Proof.LibRowLinear
import Idealize.ShloMosaic.Lib.Pipeline.Value
import Idealize.ShloMosaic.Lib.ValueIdx

noncomputable section

namespace Cert.KernelIdeal.Payloads

open Cert.KernelIdeal Cert.KernelIdeal.Gen Idealize.ShloMosaic Idealize.ShloMosaic.TcCoe
open Idealize.ShloMosaic.ValueIdx Idealize.ShloMosaic.RowLinear

/-- The first layer's projection. -/
theorem projection0 (x : Vec Ideal S5000x128 .f32) (w : Vec Ideal S128x128 .f32) : k0_pay1 x w = product x w :=
  matmul_zero_eq_product dot_S5000x128_S128x128_S5000x128_1_0_0_1_n_n rfl rfl rfl rfl rfl rfl none _ _

/-- The second layer's projection. -/
theorem projection2 (x : Vec Ideal S5000x128 .f32) (w : Vec Ideal S128x128 .f32) : k2_pay1 x w = product x w := by
  unfold k2_pay1
  rw [shapeCast_self]
  exact matmul_zero_eq_product dot_S5000x128_S128x128_S5000x128_1_0_0_1_n_n rfl rfl rfl rfl rfl rfl none _ _

/-- The third layer's projection. -/
theorem projection4 (x : Vec Ideal S5000x128 .f32) (w : Vec Ideal S128x128 .f32) : k4_pay1 x w = product x w := by
  unfold k4_pay1
  rw [shapeCast_self]
  exact matmul_zero_eq_product dot_S5000x128_S128x128_S5000x128_1_0_0_1_n_n rfl rfl rfl rfl rfl rfl none _ _

end Cert.KernelIdeal.Payloads

end
-- ==== Proof.Region0.lean ====
/-
  A layer's projection: an array of 100000 rows times the layer's 128 by 128 weight matrix, by a grid of 20 points,
  each taking a block of 5000 rows of the left array and the whole weight matrix and writing the block's product back.

  What a point's body stores is the product of its two loaded blocks. Row `p` of the block at point `t` is row
  `5000 t + p` of the left array, the weights' block is the whole matrix, and a row of a product depends on that row of
  the left operand only; so what point `t` writes back is block `t` of the product of the whole arrays. The 20 blocks
  tile the 100000 rows (row `r` lies in block `r / 5000`), hence the result array ends holding the product of the two
  arrays as the region found them.
-/
import proofs.«168235_j5506148074002_1_alg».proof.Proof.Gen.KernelIdeal.Frame
import proofs.«168235_j5506148074002_1_alg».proof.Proof.LibRowLinear
import proofs.«168235_j5506148074002_1_alg».proof.Proof.Payloads
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx Idealize.ShloMosaic.RowLinear
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- Entry `y` of the product of a block of rows with a matrix is entry `i` of the product of the whole arrays, once row
    `y₀` of the block is row `i₀` of the array and column `y₁` of the one matrix is column `i₁` of the other. -/
theorem product_block (xb : S5000x128.Idx → EReal) (wb : S128x128.Idx → EReal) (xa : S100000x128.Idx → EReal)
    (wa : S128x128.Idx → EReal) (y : S5000x128.Idx) (i : S100000x128.Idx)
    (hx : ∀ k : Fin 128, xb (ix2 (y 0 : Fin 5000) k) = xa (ix2 (i 0 : Fin 100000) k))
    (hw : ∀ k : Fin 128, wb (ix2 k (y 1 : Fin 128)) = wa (ix2 k (i 1 : Fin 128))) :
    product xb wb y = product xa wa i := by
  show ∑ k : Fin 128, xb (ix2 (y 0 : Fin 5000) k) * wb (ix2 k (y 1 : Fin 128))
      = ∑ k : Fin 128, xa (ix2 (i 0 : Fin 100000) k) * wa (ix2 k (i 1 : Fin 128))
  exact Finset.sum_congr rfl fun k _ => by rw [hx k, hw k]

/-- The block indices over the grid: the left array's and the result's blocks move down the rows with the point, the
    weights' block stays at the origin. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every one of the 20 row blocks is some point's. -/
theorem index_onto : ∀ q : Fin 20, ∃ t : Fin cfg0.N, win0_2.index t = ![q.val, 0] :=
  (by decide +kernel : ∀ q : Fin 20, ∃ t : Fin grid0.N, win0_2.index t = ![q.val, 0])

/-- What point `t` writes back is block `t` of the product of the two arrays. -/
theorem flushed_eq (c : Dev nD) (t : Fin cfg0.N) :
    (dat0 V c).flushed 2 t
      = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x128) origin]
  rw [Payloads.projection0]
  obtain ⟨e0, e1, e2, e3, e4, e5⟩ := index_facts t
  funext j
  show product (N := 5000) (K := 128) (M := 128) (iblk0 V c 0 t) (iblk0 V c 1 t) j
      = product (N := 100000) (K := 128) (M := 128) (V c main_arg0) (V c main_arg2) (((cfg0.win 2).blk t).view.emb j)
  refine product_block (iblk0 V c 0 t) (iblk0 V c 1 t) (V c main_arg0) (V c main_arg2) j
    (((cfg0.win 2).blk t).view.emb j) (fun k => ?_) (fun k => ?_)
  · show V c main_arg0 (((cfg0.win 0).blk t).view.emb (ix2 (j 0) k)) = _
    refine congrArg _ (funext fun a => Fin.ext ?_)
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 128 + 1 * k.val = k.val
      omega
  · show V c main_arg2 (((cfg0.win 1).blk t).view.emb (ix2 k (j 1))) = _
    refine congrArg _ (funext fun a => Fin.ext ?_)
    match a with
    | ⟨0, _⟩ =>
      show win0_1.index t (0 : Fin 2) * 128 + 1 * k.val = k.val
      omega
    | ⟨1, _⟩ =>
      show win0_1.index t (1 : Fin 2) * 128 + 1 * (j 1).val = win0_2.index t (1 : Fin 2) * 128 + 1 * (j 1).val
      omega

/-- An index of the result array lies in point `t`'s block iff each coordinate lies in the block's range. -/
theorem mem_block (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v32).slice (win0_2.rect t)).set ↔ _
  rw [View.set_slice_whole, Rect.mem_set_unit]
  exact Iff.rfl

/-- The blocks tile the array: row `r` lies in the block of point `r / 5000`. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- The result array after the region: the product of the left array and the weights as the region found them. -/
theorem final (c : Dev nD) : (dat0 V c).arrAt 2 cfg0.N = product (V c main_arg0) (V c main_arg2) :=
  (dat0 V c).arrAt_eq_of_cover 2 _ (fun t _ => flushed_eq V c t) cover

end Cert.KernelIdeal.Region0

end
-- ==== Proof.Region1.lean ====
/-
  A layer's bias and cut-off: a grid of 20 points, each taking a block of 5000 rows of the aggregated array and the one
  bias row, adding the bias row to every row of the block and taking the maximum with zero.

  Entry `(p, q)` of what a point stores is `max (x (p, q) + b (0, q)) 0`: the casts are to the same shape, and the
  broadcast of the one row reads its column `q`. Row `p` of the block at point `t` is row `5000 t + p` of the array, the
  bias block is the whole bias row, so a point writes back block `t` of the function `i ↦ max (a i + b (0, i₁)) 0` of
  the whole arrays; the 20 blocks tile the rows, and the result array ends holding that function.
-/
import proofs.«168235_j5506148074002_1_alg».proof.Proof.Gen.KernelIdeal.Frame
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The bias row added to every row, cut off below at zero, index by index. -/
def shifted (a : S100000x128.Idx → EReal) (b : S1x128.Idx → EReal) : S100000x128.Idx → EReal :=
  fun i => max (a i + b (ix2 (0 : Fin 1) (i 1 : Fin 128))) (Ideal.ofBits .f32 0x00000000#32)

/-- The one bias row, broadcast down the block, read at `(p, q)` is its column `q`. -/
theorem bias_apply (b : Vec Ideal S1x128 .f32) (p : Fin 5000) (q : Fin 128) :
    broadcastTo S5000x128 b broadcasts_S1x128_S5000x128 (ix2 p q) = b (ix2 (0 : Fin 1) q) :=
  broadcastTo_apply b broadcasts_S1x128_S5000x128 (ix2 p q) (ix2 (0 : Fin 1) q) fun a => by
    match a with
    | ⟨0, _⟩ => rfl
    | ⟨1, _⟩ => show q.val = if (128 : Nat) = 1 then 0 else q.val; rw [if_neg (by decide)]

/-- The body's stored value at `(p, q)`. -/
theorem payload_apply (x : Vec Ideal S5000x128 .f32) (b : Vec Ideal S1x128 .f32) (p : Fin 5000) (q : Fin 128) :
    k1_pay1 x b (ix2 p q) = max (x (ix2 p q) + b (ix2 (0 : Fin 1) q)) (Ideal.ofBits .f32 0x00000000#32) := by
  unfold k1_pay1
  rw [maximumf_apply, addf_apply, broadcast_apply, shapeCast_self, shapeCast_self, shapeCast_self, bias_apply]
  rfl

/-- The same at any index of the block. -/
theorem payload_at (x : Vec Ideal S5000x128 .f32) (b : Vec Ideal S1x128 .f32) (y : S5000x128.Idx) :
    k1_pay1 x b y = max (x y + b (ix2 (0 : Fin 1) (y 1 : Fin 128))) (Ideal.ofBits .f32 0x00000000#32) := by
  obtain ⟨p, q, rfl⟩ : ∃ (p : Fin 5000) (q : Fin 128), y = ix2 p q := ⟨y 0, y 1, eq_ix2 y⟩
  exact payload_apply x b p q

/-- The block's value at `y` is the array function's value at `i`, once entry `y` of the block is entry `i` of the
    array and the bias blocks agree at the two columns. -/
theorem shifted_congr (xb : S5000x128.Idx → EReal) (bb : S1x128.Idx → EReal) (a : S100000x128.Idx → EReal)
    (b : S1x128.Idx → EReal) (y : S5000x128.Idx) (i : S100000x128.Idx) (hx : xb y = a i)
    (hb : bb (ix2 (0 : Fin 1) (y 1 : Fin 128)) = b (ix2 (0 : Fin 1) (i 1 : Fin 128))) :
    max (xb y + bb (ix2 (0 : Fin 1) (y 1 : Fin 128))) (Ideal.ofBits .f32 0x00000000#32) = shifted a b i := by
  unfold shifted
  rw [hx, hb]

theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem index_onto : ∀ q : Fin 20, ∃ t : Fin cfg1.N, win1_2.index t = ![q.val, 0] :=
  (by decide +kernel : ∀ q : Fin 20, ∃ t : Fin grid1.N, win1_2.index t = ![q.val, 0])

/-- What point `t` writes back is block `t` of the shifted, cut-off array. -/
theorem flushed_eq (c : Dev nD) (t : Fin cfg1.N) :
    (dat1 V c).flushed 2 t
      = ((cfg1.win 2).blk t).view.read (Elt Ideal) (shifted (V c main_v45) (V c main_v46)) := by
  show (cfg1.win 2).cut (grid1.coords t) ((dat1 V c).after 2 t) = _
  rw [after1_2]
  unfold out1_2
  rw [View.canon_unit_zero origin]
  simp only [View.ld_unit_zero (S := S5000x128) origin, View.ld_unit_zero (S := S1x128) origin]
  obtain ⟨e0, e1, e2, e3, e4, e5⟩ := index_facts t
  funext j
  show k1_pay1 (iblk1 V c 0 t) (iblk1 V c 1 t) j
      = shifted (V c main_v45) (V c main_v46) (((cfg1.win 2).blk t).view.emb j)
  refine (payload_at (iblk1 V c 0 t) (iblk1 V c 1 t) j).trans ?_
  refine shifted_congr (iblk1 V c 0 t) (iblk1 V c 1 t) (V c main_v45) (V c main_v46) j
    (((cfg1.win 2).blk t).view.emb j) ?_ ?_
  · show V c main_v45 (((cfg1.win 0).blk t).view.emb j) = _
    refine congrArg _ (funext fun a => Fin.ext ?_)
    match a with
    | ⟨0, _⟩ =>
      show win1_0.index t (0 : Fin 2) * 5000 + 1 * (j 0).val = win1_2.index t (0 : Fin 2) * 5000 + 1 * (j 0).val
      omega
    | ⟨1, _⟩ =>
      show win1_0.index t (1 : Fin 2) * 128 + 1 * (j 1).val = win1_2.index t (1 : Fin 2) * 128 + 1 * (j 1).val
      omega
  · show V c main_v46 (((cfg1.win 1).blk t).view.emb (ix2 (0 : Fin 1) (j 1 : Fin 128))) = _
    refine congrArg _ (funext fun a => Fin.ext ?_)
    match a with
    | ⟨0, _⟩ =>
      show win1_1.index t (0 : Fin 2) * 1 + 1 * 0 = 0
      omega
    | ⟨1, _⟩ =>
      show win1_1.index t (1 : Fin 2) * 128 + 1 * (j 1).val = win1_2.index t (1 : Fin 2) * 128 + 1 * (j 1).val
      omega

theorem mem_block (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v47).slice (win1_2.rect t)).set ↔ _
  rw [View.set_slice_whole, Rect.mem_set_unit]
  exact Iff.rfl

theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := index_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 128 ≤ (i 1).val ∧ (i 1).val < win1_2.index t (1 : Fin 2) * 128 + 128
    omega

/-- The result array after the region. -/
theorem final (c : Dev nD) : (dat1 V c).arrAt 2 cfg1.N = shifted (V c main_v45) (V c main_v46) :=
  (dat1 V c).arrAt_eq_of_cover 2 _ (fun t _ => flushed_eq V c t) cover

end Cert.KernelIdeal.Region1

end
-- ==== Proof.Region6.lean ====
/-
  The output head: the last layer's output times the 128 by 40 classifier weights plus the classifier's bias row, by a
  grid of 20 points, each taking a block of 5000 rows of the layer's output, the whole weight matrix and the one bias
  row, and writing back the block's product with the bias row added to every row.

  Entry `(p, q)` of what a point stores is `(x · w) (p, q) + b (0, q)`: the product into a zero accumulator is the exact
  row-by-column sum, narrowing the operands changes nothing at the ideal values, the casts are to the same shape, and
  the broadcast of the one row reads its column `q`. Row `p` of the block at point `t` is row `5000 t + p` of the array
  and a row of a product depends on that row of the left operand only, so point `t` writes back block `t` of
  `i ↦ (a · w) i + b (0, i₁)` of the whole arrays; the 20 blocks tile the rows, and the result array ends holding it.
-/
import proofs.«168235_j5506148074002_1_alg».proof.Proof.Gen.KernelIdeal.Frame
import proofs.«168235_j5506148074002_1_alg».proof.Proof.LibRowLinear
import Idealize.ShloMosaic.Lib.Pipeline.Value
import Idealize.ShloMosaic.Lib.ValueIdx

set_option maxRecDepth 16384

noncomputable section

namespace Cert.KernelIdeal.Region6

open Cert.KernelIdeal Cert.KernelIdeal.Gen Idealize.ShloMosaic Idealize.ShloMosaic.TcCoe Idealize.SL.Sem
open Idealize.ShloMosaic.ValueIdx Idealize.ShloMosaic.RowLinear
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The product with the bias row added to every row, index by index. -/
def headed (a : S100000x128.Idx → EReal) (w : S128x40.Idx → EReal) (b : S1x40.Idx → EReal) : S100000x40.Idx → EReal :=
  fun i => product a w i + b (ix2 (0 : Fin 1) (i 1 : Fin 40))

/-- The one bias row, broadcast down the block, read at `(p, q)` is its column `q`. -/
theorem bias_apply (b : Vec Ideal S1x40 .f32) (p : Fin 5000) (q : Fin 40) :
    broadcastTo S5000x40 b broadcasts_S1x40_S5000x40 (ix2 p q) = b (ix2 (0 : Fin 1) q) :=
  broadcastTo_apply b broadcasts_S1x40_S5000x40 (ix2 p q) (ix2 (0 : Fin 1) q) fun a => by
    match a with
    | ⟨0, _⟩ => rfl
    | ⟨1, _⟩ => show q.val = if (40 : Nat) = 1 then 0 else q.val; rw [if_neg (by decide)]

/-- The body's stored value at `(p, q)`. -/
theorem payload_apply (x : Vec Ideal S5000x128 .f32) (w : Vec Ideal S128x40 .f32) (b : Vec Ideal S1x40 .f32)
    (p : Fin 5000) (q : Fin 40) :
    k6_pay1 x w b (ix2 p q) = product x w (ix2 p q) + b (ix2 (0 : Fin 1) q) := by
  unfold k6_pay1
  rw [addf_apply, shapeCast_self, shapeCast_self, shapeCast_self, bias_apply]
  refine congrArg (· + b (ix2 (0 : Fin 1) q)) ?_
  exact congrFun (matmul_zero_eq_product dot_S5000x128_S128x40_S5000x40_1_0_0_1_n_n rfl rfl rfl rfl rfl rfl none _ _) (ix2 p q)

/-- The same at any index of the block. -/
theorem payload_at (x : Vec Ideal S5000x128 .f32) (w : Vec Ideal S128x40 .f32) (b : Vec Ideal S1x40 .f32)
    (y : S5000x40.Idx) :
    k6_pay1 x w b y = product x w y + b (ix2 (0 : Fin 1) (y 1 : Fin 40)) := by
  obtain ⟨p, q, rfl⟩ : ∃ (p : Fin 5000) (q : Fin 40), y = ix2 p q := ⟨y 0, y 1, eq_ix2 y⟩
  exact payload_apply x w b p q

/-- Entry `y` of the product of a block of rows with a matrix is entry `i` of the product of the whole arrays, once row
    `y₀` of the block is row `i₀` of the array and column `y₁` of the one matrix is column `i₁` of the other. -/
theorem product_block (xb : S5000x128.Idx → EReal) (wb : S128x40.Idx → EReal) (xa : S100000x128.Idx → EReal)
    (wa : S128x40.Idx → EReal) (y : S5000x40.Idx) (i : S100000x40.Idx)
    (hx : ∀ k : Fin 128, xb (ix2 (y 0 : Fin 5000) k) = xa (ix2 (i 0 : Fin 100000) k))
    (hw : ∀ k : Fin 128, wb (ix2 k (y 1 : Fin 40)) = wa (ix2 k (i 1 : Fin 40))) :
    product xb wb y = product xa wa i := by
  show ∑ k : Fin 128, xb (ix2 (y 0 : Fin 5000) k) * wb (ix2 k (y 1 : Fin 40))
      = ∑ k : Fin 128, xa (ix2 (i 0 : Fin 100000) k) * wa (ix2 k (i 1 : Fin 40))
  exact Finset.sum_congr rfl fun k _ => by rw [hx k, hw k]

/-- The block's value at `y` is the array function's value at `i`, once the products and the bias entries agree. -/
theorem headed_congr (xb : S5000x128.Idx → EReal) (wb : S128x40.Idx → EReal) (bb : S1x40.Idx → EReal)
    (a : S100000x128.Idx → EReal) (w : S128x40.Idx → EReal) (b : S1x40.Idx → EReal) (y : S5000x40.Idx)
    (i : S100000x40.Idx) (hp : product xb wb y = product a w i)
    (hb : bb (ix2 (0 : Fin 1) (y 1 : Fin 40)) = b (ix2 (0 : Fin 1) (i 1 : Fin 40))) :
    product xb wb y + bb (ix2 (0 : Fin 1) (y 1 : Fin 40)) = headed a w b i := by
  unfold headed
  rw [hp, hb]

theorem index_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

theorem index_onto : ∀ q : Fin 20, ∃ t : Fin cfg6.N, win6_3.index t = ![q.val, 0] :=
  (by decide +kernel : ∀ q : Fin 20, ∃ t : Fin grid6.N, win6_3.index t = ![q.val, 0])

/-- What point `t` writes back is block `t` of the product with the bias row added. -/
theorem flushed_eq (c : Dev nD) (t : Fin cfg6.N) :
    (dat6 V c).flushed 3 t
      = ((cfg6.win 3).blk t).view.read (Elt Ideal) (headed (V c main_v79) (V c main_arg8) (V c main_v80)) := by
  show (cfg6.win 3).cut (grid6.coords t) ((dat6 V c).after 3 t) = _
  rw [after6_3]
  unfold out6_3
  rw [View.canon_unit_zero origin]
  simp only [View.ld_unit_zero (S := S5000x128) origin, View.ld_unit_zero (S := S128x40) origin,
    View.ld_unit_zero (S := S1x40) origin]
  obtain ⟨e0, e1, e2, e3, e4, e5, e6, e7⟩ := index_facts t
  funext j
  show k6_pay1 (iblk6 V c 0 t) (iblk6 V c 1 t) (iblk6 V c 2 t) j
      = headed (V c main_v79) (V c main_arg8) (V c main_v80) (((cfg6.win 3).blk t).view.emb j)
  refine (payload_at (iblk6 V c 0 t) (iblk6 V c 1 t) (iblk6 V c 2 t) j).trans ?_
  refine headed_congr (iblk6 V c 0 t) (iblk6 V c 1 t) (iblk6 V c 2 t) (V c main_v79) (V c main_arg8) (V c main_v80) j
    (((cfg6.win 3).blk t).view.emb j) ?_ ?_
  · refine product_block (iblk6 V c 0 t) (iblk6 V c 1 t) (V c main_v79) (V c main_arg8) j
      (((cfg6.win 3).blk t).view.emb j) (fun k => ?_) (fun k => ?_)
    · show V c main_v79 (((cfg6.win 0).blk t).view.emb (ix2 (j 0) k)) = _
      refine congrArg _ (funext fun a => Fin.ext ?_)
      match a with
      | ⟨0, _⟩ =>
        show win6_0.index t (0 : Fin 2) * 5000 + 1 * (j 0).val = win6_3.index t (0 : Fin 2) * 5000 + 1 * (j 0).val
        omega
      | ⟨1, _⟩ =>
        show win6_0.index t (1 : Fin 2) * 128 + 1 * k.val = k.val
        omega
    · show V c main_arg8 (((cfg6.win 1).blk t).view.emb (ix2 k (j 1))) = _
      refine congrArg _ (funext fun a => Fin.ext ?_)
      match a with
      | ⟨0, _⟩ =>
        show win6_1.index t (0 : Fin 2) * 128 + 1 * k.val = k.val
        omega
      | ⟨1, _⟩ =>
        show win6_1.index t (1 : Fin 2) * 40 + 1 * (j 1).val = win6_3.index t (1 : Fin 2) * 40 + 1 * (j 1).val
        omega
  · show V c main_v80 (((cfg6.win 2).blk t).view.emb (ix2 (0 : Fin 1) (j 1 : Fin 40))) = _
    refine congrArg _ (funext fun a => Fin.ext ?_)
    match a with
    | ⟨0, _⟩ =>
      show win6_2.index t (0 : Fin 2) * 1 + 1 * 0 = 0
      omega
    | ⟨1, _⟩ =>
      show win6_2.index t (1 : Fin 2) * 40 + 1 * (j 1).val = win6_3.index t (1 : Fin 2) * 40 + 1 * (j 1).val
      omega

theorem mem_block (t : Fin cfg6.N) (i : S100000x40.Idx) :
    i ∈ ((cfg6.win 3).blk t).view.set ↔ ∀ a : Fin 2, win6_3.index t a * S5000x40.size a ≤ (i a).val
      ∧ (i a).val < win6_3.index t a * S5000x40.size a + S5000x40.size a := by
  show i ∈ ((View.whole main_v81).slice (win6_3.rect t)).set ↔ _
  rw [View.set_slice_whole, Rect.mem_set_unit]
  exact Iff.rfl

theorem cover (i : S100000x40.Idx) :
    ∃ t : Fin cfg6.N, (cfg6.win 3).flush t = true ∧ i ∈ ((cfg6.win 3).blk t).view.set := by
  have hi0 : (i 0).val < 100000 := (i 0).isLt
  have hi1 : (i 1).val < 40 := (i 1).isLt
  obtain ⟨t, ht⟩ := index_onto ⟨(i 0).val / 5000, by omega⟩
  have q0 : win6_3.index t (0 : Fin 2) = (i 0).val / 5000 := congrFun ht 0
  have q1 : win6_3.index t (1 : Fin 2) = 0 := congrFun ht 1
  refine ⟨t, flush6_3 t, ?_⟩
  rw [mem_block]
  intro a
  match a with
  | ⟨0, _⟩ =>
    show win6_3.index t (0 : Fin 2) * 5000 ≤ (i 0).val ∧ (i 0).val < win6_3.index t (0 : Fin 2) * 5000 + 5000
    omega
  | ⟨1, _⟩ =>
    show win6_3.index t (1 : Fin 2) * 40 ≤ (i 1).val ∧ (i 1).val < win6_3.index t (1 : Fin 2) * 40 + 40
    omega

/-- The result array after the region. -/
theorem final (c : Dev nD) :
    (dat6 V c).arrAt 3 cfg6.N = headed (V c main_v79) (V c main_arg8) (V c main_v80) :=
  (dat6 V c).arrAt_eq_of_cover 3 _ (fun t _ => flushed_eq V c t) cover

end Cert.KernelIdeal.Region6

end
-- ==== Proof.Bridge.lean ====
/-
  The layer functions at the ideal values, index by index.

  `project` is the matrix product. `activate a b` at `i` is `max (a i + b i₁) 0`: the reference broadcasts the bias
  first to one row and then down the rows, the kernel reshapes it to one row which its body broadcasts, and either way
  row `i₀` gets `b` at the column `i₁`. Likewise `classify h w b` at `i` is `(h · w) i + b i₁`. These are the forms in which
  the regions' result arrays are known.
-/
import proofs.«168235_j5506148074002_1_alg».proof.Proof.Graph
import proofs.«168235_j5506148074002_1_alg».proof.Proof.Region1
import proofs.«168235_j5506148074002_1_alg».proof.Proof.Region6
import proofs.«168235_j5506148074002_1_alg».proof.Proof.LibRowLinear
import Idealize.ShloMosaic.Lib.Pipeline.Value
import Idealize.ShloMosaic.Lib.ValueIdx

noncomputable section

namespace Cert.Bridge

open Idealize.ShloMosaic Idealize.ShloMosaic.ValueIdx Idealize.ShloMosaic.RowLinear

abbrev N128 : Shape := ⟨2, ![100000, 128]⟩
abbrev N40 : Shape := ⟨2, ![100000, 40]⟩
abbrev R128 : Shape := ⟨2, ![1, 128]⟩
abbrev R40 : Shape := ⟨2, ![1, 40]⟩
abbrev V128 : Shape := ⟨1, ![128]⟩
abbrev V40 : Shape := ⟨1, ![40]⟩

/-- A vector of 128 reshaped to one row, read at column `q`. -/
theorem reshape_row128 (b : V128.Idx → EReal) (h : V128.ShapeCasts R128) (q : Fin 128) :
    shapeCast R128 b h (ix2 (0 : Fin 1) q) = b (ix1 q) :=
  shapeCast_apply b h (ix2 (0 : Fin 1) q) (ix1 q) (by
    rw [Shape.rowMajor_val_one, Shape.rowMajor_val_two]
    show q.val = 0 * 128 + q.val
    omega)

/-- A vector of 40 reshaped to one row, read at column `q`. -/
theorem reshape_row40 (b : V40.Idx → EReal) (h : V40.ShapeCasts R40) (q : Fin 40) :
    shapeCast R40 b h (ix2 (0 : Fin 1) q) = b (ix1 q) :=
  shapeCast_apply b h (ix2 (0 : Fin 1) q) (ix1 q) (by
    rw [Shape.rowMajor_val_one, Shape.rowMajor_val_two]
    show q.val = 0 * 40 + q.val
    omega)

/-- A vector of 128 broadcast to one row and then down 100000 rows, read at `i`. -/
theorem bias_rows128 (b : V128.Idx → EReal) (h1 : V128.BroadcastsInDim R128 ![1]) (h2 : R128.BroadcastsInDim N128 ![0, 1])
    (i : N128.Idx) :
    broadcastInDim N128 ![0, 1] h2 (broadcastInDim R128 ![1] h1 b) i = b (ix1 (i 1 : Fin 128)) :=
  (broadcastInDim_apply ![0, 1] h2 _ i (ix2 (0 : Fin 1) (i 1 : Fin 128)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])).trans
  (broadcastInDim_apply ![1] h1 b (ix2 (0 : Fin 1) (i 1 : Fin 128)) (ix1 (i 1 : Fin 128)) (fun a => match a with
    | ⟨0, _⟩ => by show (i 1).val = if (128 : Nat) = 1 then 0 else (i 1).val; rw [if_neg (by decide)]))

/-- A vector of 40 broadcast to one row and then down 100000 rows, read at `i`. -/
theorem bias_rows40 (b : V40.Idx → EReal) (h1 : V40.BroadcastsInDim R40 ![1]) (h2 : R40.BroadcastsInDim N40 ![0, 1])
    (i : N40.Idx) :
    broadcastInDim N40 ![0, 1] h2 (broadcastInDim R40 ![1] h1 b) i = b (ix1 (i 1 : Fin 40)) :=
  (broadcastInDim_apply ![0, 1] h2 _ i (ix2 (0 : Fin 1) (i 1 : Fin 40)) (fun a => match a with
    | ⟨0, _⟩ => by show 0 = if (1 : Nat) = 1 then 0 else (i 0).val; rw [if_pos rfl]
    | ⟨1, _⟩ => by show (i 1).val = if (40 : Nat) = 1 then 0 else (i 1).val; rw [if_neg (by decide)])).trans
  (broadcastInDim_apply ![1] h1 b (ix2 (0 : Fin 1) (i 1 : Fin 40)) (ix1 (i 1 : Fin 40)) (fun a => match a with
    | ⟨0, _⟩ => by show (i 1).val = if (40 : Nat) = 1 then 0 else (i 1).val; rw [if_neg (by decide)]))

/-- A scalar broadcast to every entry. -/
theorem scalar_rows (z : (⟨0, ![]⟩ : Shape).Idx → EReal) (h : (⟨0, ![]⟩ : Shape).BroadcastsInDim N128 ![]) (i : N128.Idx) :
    broadcastInDim N128 ![] h z i = z (fun a => a.elim0) :=
  broadcastInDim_apply ![] h z i (fun a => a.elim0) (fun a => a.elim0)

/-- The shared projection is the matrix product. -/
theorem project_eq (h : N128.Idx → EReal) (w : (⟨2, ![128, 128]⟩ : Shape).Idx → EReal) :
    Cert.Graph.project (F := Ideal) h w = product h w :=
  dotGeneral_eq_product Cert.ReferenceIdeal.dot_S100000x128_S128x128_S100000x128_1_0_0_1_n_n rfl rfl rfl rfl rfl rfl none h w

/-- The shared bias and cut-off, over the kernel's one-row reshape of the bias. -/
theorem activate_eq (a : N128.Idx → EReal) (b : V128.Idx → EReal) (h : V128.ShapeCasts R128) :
    Cert.Graph.activate (F := Ideal) a b = Cert.KernelIdeal.Region1.shifted a (shapeCast R128 b h) := by
  refine funext fun (i : N128.Idx) => ?_
  exact congrArg₂ max
    (congrArg (a i + ·) ((bias_rows128 b _ _ i).trans (reshape_row128 b h (i 1 : Fin 128)).symm))
    ((scalar_rows _ _ i).trans rfl)

/-- The shared output head, over the kernel's one-row reshape of the bias. -/
theorem classify_eq (x : N128.Idx → EReal) (w : (⟨2, ![128, 40]⟩ : Shape).Idx → EReal) (b : V40.Idx → EReal)
    (h : V40.ShapeCasts R40) :
    Cert.Graph.classify (F := Ideal) x w b = Cert.KernelIdeal.Region6.headed x w (shapeCast R40 b h) := by
  refine funext fun (i : N40.Idx) => ?_
  exact congrArg₂ (· + ·)
    (congrFun (dotGeneral_eq_product Cert.ReferenceIdeal.dot_S100000x128_S128x40_S100000x40_1_0_0_1_n_n
      rfl rfl rfl rfl rfl rfl none x w) i)
    ((bias_rows40 b _ _ i).trans (reshape_row40 b h (i 1 : Fin 40)).symm)

end Cert.Bridge

end
-- ==== Proof.KernelValue.lean ====
/-
  The kernel program's result at the ideal values, boundary by boundary.

  Each projection region leaves the product of its left array with the layer's weights (`project`); the stretch after
  it gathers, scales and scatters the projected rows over the three index-side arrays (`aggregate`) and reshapes the
  bias; the next region adds the bias row and cuts off at zero (`activate`); the last region multiplies by the
  classifier's weights and adds its bias (`classify`). The arguments and the index-side arrays are read at each
  boundary with the contents they had when the first region was entered, the arguments with their launch contents.
  Composed, the result array holds `network` of the launch arguments over the reference's own index-side stages.
-/
import proofs.«168235_j5506148074002_1_alg».proof.Proof.KernelHost
import proofs.«168235_j5506148074002_1_alg».proof.Proof.Region0
import proofs.«168235_j5506148074002_1_alg».proof.Proof.Region1
import proofs.«168235_j5506148074002_1_alg».proof.Proof.Region2
import proofs.«168235_j5506148074002_1_alg».proof.Proof.Region3
import proofs.«168235_j5506148074002_1_alg».proof.Proof.Region4
import proofs.«168235_j5506148074002_1_alg».proof.Proof.Region5
import proofs.«168235_j5506148074002_1_alg».proof.Proof.Region6
import proofs.«168235_j5506148074002_1_alg».proof.Proof.Bridge

set_option maxRecDepth 16384

noncomputable section

namespace Cert.KernelIdeal.Net

open Cert.KernelIdeal Cert.KernelIdeal.Gen Cert.KernelIdeal.Host Idealize.ShloMosaic Idealize.ShloMosaic.TcCoe Idealize.SL.Sem
open Cert.ReferenceIdeal.ReadP (val_main_v3 val_main_v6 val_main_v31)
open Cert.Graph

variable (m : (ℓ : Loc nD τ sig) → Buf (Elt Ideal) ℓ) (ρ : Dev nD → PrngReg)

/-! ## The launch arguments, and the index-side arrays -/

abbrev a0 (c : Dev nD) : (⟨Cert.ReferenceIdeal.S100000x128, .f32⟩ : BufTy).Contents (Elt Ideal) := m ((c : Thread nD τ).loc main_arg0)
abbrev a1 (c : Dev nD) : (⟨Cert.ReferenceIdeal.S2x600000, .i32⟩ : BufTy).Contents (Elt Ideal) := m ((c : Thread nD τ).loc main_arg1)
abbrev a2 (c : Dev nD) : (⟨Cert.ReferenceIdeal.S128x128, .f32⟩ : BufTy).Contents (Elt Ideal) := m ((c : Thread nD τ).loc main_arg2)
abbrev a3 (c : Dev nD) : (⟨Cert.ReferenceIdeal.S128, .f32⟩ : BufTy).Contents (Elt Ideal) := m ((c : Thread nD τ).loc main_arg3)
abbrev a4 (c : Dev nD) : (⟨Cert.ReferenceIdeal.S128x128, .f32⟩ : BufTy).Contents (Elt Ideal) := m ((c : Thread nD τ).loc main_arg4)
abbrev a5 (c : Dev nD) : (⟨Cert.ReferenceIdeal.S128, .f32⟩ : BufTy).Contents (Elt Ideal) := m ((c : Thread nD τ).loc main_arg5)
abbrev a6 (c : Dev nD) : (⟨Cert.ReferenceIdeal.S128x128, .f32⟩ : BufTy).Contents (Elt Ideal) := m ((c : Thread nD τ).loc main_arg6)
abbrev a7 (c : Dev nD) : (⟨Cert.ReferenceIdeal.S128, .f32⟩ : BufTy).Contents (Elt Ideal) := m ((c : Thread nD τ).loc main_arg7)
abbrev a8 (c : Dev nD) : (⟨Cert.ReferenceIdeal.S128x40, .f32⟩ : BufTy).Contents (Elt Ideal) := m ((c : Thread nD τ).loc main_arg8)
abbrev a9 (c : Dev nD) : (⟨Cert.ReferenceIdeal.S40, .f32⟩ : BufTy).Contents (Elt Ideal) := m ((c : Thread nD τ).loc main_arg9)

abbrev sI (c : Dev nD) : (⟨Cert.ReferenceIdeal.S700000, .i32⟩ : BufTy).Contents (Elt Ideal) := val_main_v3 (F := Ideal) (a1 m c)
abbrev dI (c : Dev nD) : (⟨Cert.ReferenceIdeal.S700000, .i32⟩ : BufTy).Contents (Elt Ideal) := val_main_v6 (F := Ideal) (a1 m c)
abbrev nI (c : Dev nD) : (⟨Cert.ReferenceIdeal.S700000, .f32⟩ : BufTy).Contents (Elt Ideal) := val_main_v31 (F := Ideal) (a1 m c)

/-- The three layers' outputs. -/
abbrev h1 (c : Dev nD) : (⟨Cert.ReferenceIdeal.S100000x128, .f32⟩ : BufTy).Contents (Elt Ideal) :=
  activate (aggregate (sI m c) (dI m c) (nI m c) (project (a0 m c) (a2 m c))) (a3 m c)
abbrev h2 (c : Dev nD) : (⟨Cert.ReferenceIdeal.S100000x128, .f32⟩ : BufTy).Contents (Elt Ideal) :=
  activate (aggregate (sI m c) (dI m c) (nI m c) (project (h1 m c) (a4 m c))) (a5 m c)
abbrev h3 (c : Dev nD) : (⟨Cert.ReferenceIdeal.S100000x128, .f32⟩ : BufTy).Contents (Elt Ideal) :=
  activate (aggregate (sI m c) (dI m c) (nI m c) (project (h2 m c) (a6 m c))) (a7 m c)

/-! ## Layer 1 -/

theorem projected1 (c : Dev nD) : W4 m ρ c (Proc.devRef .tc main_v32) = project (a0 m c) (a2 m c) :=
  (W4_arr m ρ c 2).trans ((Region0.final (V3 m ρ) c).trans
    ((congrArg₂ (RowLinear.product (N := 100000) (K := 128) (M := 128))
        (arg_at_entry m ρ c main_arg0 (by decide)) (arg_at_entry m ρ c main_arg2 (by decide))).trans
      (Bridge.project_eq _ _).symm))

theorem aggregated1 (c : Dev nD) : W5 m ρ c (Proc.devRef .tc main_v45)
    = aggregate (sI m c) (dI m c) (nI m c) (project (a0 m c) (a2 m c)) :=
  (aggregate1 m ρ c).trans (by
    rw [((step4 m ρ c main_v3 (by decide)).trans (sources m ρ c)), ((step4 m ρ c main_v6 (by decide)).trans (destinations m ρ c)),
      ((step4 m ρ c main_v31 (by decide)).trans (coefficients m ρ c)), projected1 m ρ c])

theorem row1 (c : Dev nD) : W5 m ρ c (Proc.devRef .tc main_v46)
    = shapeCast S1x128 (a3 m c) Facts₀.shapeCasts_S128_S1x128 :=
  (bias1 m ρ c).trans (by rw [((step4 m ρ c main_arg3 (by decide)).trans (arg_at_entry m ρ c main_arg3 (by decide)))])

theorem activated1 (c : Dev nD) : W6 m ρ c (Proc.devRef .tc main_v47) = h1 m c :=
  (W6_arr m ρ c 2).trans ((Region1.final (V5 m ρ) c).trans
    ((congrArg₂ Region1.shifted (aggregated1 m ρ c) (row1 m ρ c)).trans (Bridge.activate_eq _ _ _).symm))

/-! ## Layer 2 -/

theorem projected2 (c : Dev nD) : W7 m ρ c (Proc.devRef .tc main_v48) = project (h1 m c) (a4 m c) :=
  (W7_arr m ρ c 2).trans ((Region2.final (V6 m ρ) c).trans
    ((congrArg₂ (RowLinear.product (N := 100000) (K := 128) (M := 128))
        (activated1 m ρ c) (((step6 m ρ c main_arg4 (by decide)).trans ((step5 m ρ c main_arg4 (by decide)).trans (step4 m ρ c main_arg4 (by decide)))).trans (arg_at_entry m ρ c main_arg4 (by decide)))).trans
      (Bridge.project_eq _ _).symm))

theorem aggregated2 (c : Dev nD) : W8 m ρ c (Proc.devRef .tc main_v61)
    = aggregate (sI m c) (dI m c) (nI m c) (project (h1 m c) (a4 m c)) :=
  (aggregate2 m ρ c).trans (by
    rw [(((step7 m ρ c main_v3 (by decide)).trans ((step6 m ρ c main_v3 (by decide)).trans ((step5 m ρ c main_v3 (by decide)).trans (step4 m ρ c main_v3 (by decide))))).trans (sources m ρ c)), (((step7 m ρ c main_v6 (by decide)).trans ((step6 m ρ c main_v6 (by decide)).trans ((step5 m ρ c main_v6 (by decide)).trans (step4 m ρ c main_v6 (by decide))))).trans (destinations m ρ c)),
      (((step7 m ρ c main_v31 (by decide)).trans ((step6 m ρ c main_v31 (by decide)).trans ((step5 m ρ c main_v31 (by decide)).trans (step4 m ρ c main_v31 (by decide))))).trans (coefficients m ρ c)), projected2 m ρ c])

theorem row2 (c : Dev nD) : W8 m ρ c (Proc.devRef .tc main_v62)
    = shapeCast S1x128 (a5 m c) Facts₀.shapeCasts_S128_S1x128 :=
  (bias2 m ρ c).trans (by rw [(((step7 m ρ c main_arg5 (by decide)).trans ((step6 m ρ c main_arg5 (by decide)).trans ((step5 m ρ c main_arg5 (by decide)).trans (step4 m ρ c main_arg5 (by decide))))).trans (arg_at_entry m ρ c main_arg5 (by decide)))])

theorem activated2 (c : Dev nD) : W9 m ρ c (Proc.devRef .tc main_v63) = h2 m c :=
  (W9_arr m ρ c 2).trans ((Region3.final (V8 m ρ) c).trans
    ((congrArg₂ Region3.shifted (aggregated2 m ρ c) (row2 m ρ c)).trans (Bridge.activate_eq _ _ _).symm))

/-! ## Layer 3 -/

theorem projected3 (c : Dev nD) : W10 m ρ c (Proc.devRef .tc main_v64) = project (h2 m c) (a6 m c) :=
  (W10_arr m ρ c 2).trans ((Region4.final (V9 m ρ) c).trans
    ((congrArg₂ (RowLinear.product (N := 100000) (K := 128) (M := 128))
        (activated2 m ρ c) (((step9 m ρ c main_arg6 (by decide)).trans ((step8 m ρ c main_arg6 (by decide)).trans ((step7 m ρ c main_arg6 (by decide)).trans ((step6 m ρ c main_arg6 (by decide)).trans ((step5 m ρ c main_arg6 (by decide)).trans (step4 m ρ c main_arg6 (by decide))))))).trans (arg_at_entry m ρ c main_arg6 (by decide)))).trans
      (Bridge.project_eq _ _).symm))

theorem aggregated3 (c : Dev nD) : W11 m ρ c (Proc.devRef .tc main_v77)
    = aggregate (sI m c) (dI m c) (nI m c) (project (h2 m c) (a6 m c)) :=
  (aggregate3 m ρ c).trans (by
    rw [(((step10 m ρ c main_v3 (by decide)).trans ((step9 m ρ c main_v3 (by decide)).trans ((step8 m ρ c main_v3 (by decide)).trans ((step7 m ρ c main_v3 (by decide)).trans ((step6 m ρ c main_v3 (by decide)).trans ((step5 m ρ c main_v3 (by decide)).trans (step4 m ρ c main_v3 (by decide)))))))).trans (sources m ρ c)), (((step10 m ρ c main_v6 (by decide)).trans ((step9 m ρ c main_v6 (by decide)).trans ((step8 m ρ c main_v6 (by decide)).trans ((step7 m ρ c main_v6 (by decide)).trans ((step6 m ρ c main_v6 (by decide)).trans ((step5 m ρ c main_v6 (by decide)).trans (step4 m ρ c main_v6 (by decide)))))))).trans (destinations m ρ c)),
      (((step10 m ρ c main_v31 (by decide)).trans ((step9 m ρ c main_v31 (by decide)).trans ((step8 m ρ c main_v31 (by decide)).trans ((step7 m ρ c main_v31 (by decide)).trans ((step6 m ρ c main_v31 (by decide)).trans ((step5 m ρ c main_v31 (by decide)).trans (step4 m ρ c main_v31 (by decide)))))))).trans (coefficients m ρ c)), projected3 m ρ c])

theorem row3 (c : Dev nD) : W11 m ρ c (Proc.devRef .tc main_v78)
    = shapeCast S1x128 (a7 m c) Facts₀.shapeCasts_S128_S1x128 :=
  (bias3 m ρ c).trans (by rw [(((step10 m ρ c main_arg7 (by decide)).trans ((step9 m ρ c main_arg7 (by decide)).trans ((step8 m ρ c main_arg7 (by decide)).trans ((step7 m ρ c main_arg7 (by decide)).trans ((step6 m ρ c main_arg7 (by decide)).trans ((step5 m ρ c main_arg7 (by decide)).trans (step4 m ρ c main_arg7 (by decide)))))))).trans (arg_at_entry m ρ c main_arg7 (by decide)))])

theorem activated3 (c : Dev nD) : W12 m ρ c (Proc.devRef .tc main_v79) = h3 m c :=
  (W12_arr m ρ c 2).trans ((Region5.final (V11 m ρ) c).trans
    ((congrArg₂ Region5.shifted (aggregated3 m ρ c) (row3 m ρ c)).trans (Bridge.activate_eq _ _ _).symm))

/-! ## The output head -/

theorem row_head (c : Dev nD) : W13 m ρ c (Proc.devRef .tc main_v80)
    = shapeCast S1x40 (a9 m c) Facts₀.shapeCasts_S40_S1x40 :=
  (bias_head m ρ c).trans (by rw [(((step12 m ρ c main_arg9 (by decide)).trans ((step11 m ρ c main_arg9 (by decide)).trans ((step10 m ρ c main_arg9 (by decide)).trans ((step9 m ρ c main_arg9 (by decide)).trans ((step8 m ρ c main_arg9 (by decide)).trans ((step7 m ρ c main_arg9 (by decide)).trans ((step6 m ρ c main_arg9 (by decide)).trans ((step5 m ρ c main_arg9 (by decide)).trans (step4 m ρ c main_arg9 (by decide)))))))))).trans (arg_at_entry m ρ c main_arg9 (by decide)))])

/-- The result array after the last region. -/
theorem result (c : Dev nD) : W14 m ρ c (Proc.devRef .tc main_v81)
    = network (sI m c) (dI m c) (nI m c) (a0 m c) (a2 m c) (a3 m c) (a4 m c) (a5 m c) (a6 m c) (a7 m c) (a8 m c) (a9 m c) :=
  by
  refine (W14_arr m ρ c 3).trans ((Region6.final (V13 m ρ) c).trans ?_)
  have e1 : W13 m ρ c (Proc.devRef .tc main_v79) = h3 m c :=
    (step13 m ρ c main_v79 (by decide)).trans (activated3 m ρ c)
  have e2 : W13 m ρ c (Proc.devRef .tc main_arg8) = a8 m c := (((step13 m ρ c main_arg8 (by decide)).trans ((step12 m ρ c main_arg8 (by decide)).trans ((step11 m ρ c main_arg8 (by decide)).trans ((step10 m ρ c main_arg8 (by decide)).trans ((step9 m ρ c main_arg8 (by decide)).trans ((step8 m ρ c main_arg8 (by decide)).trans ((step7 m ρ c main_arg8 (by decide)).trans ((step6 m ρ c main_arg8 (by decide)).trans ((step5 m ρ c main_arg8 (by decide)).trans (step4 m ρ c main_arg8 (by decide))))))))))).trans (arg_at_entry m ρ c main_arg8 (by decide)))
  have e3 := row_head m ρ c
  show Region6.headed (W13 m ρ c (Proc.devRef .tc main_v79)) (W13 m ρ c (Proc.devRef .tc main_arg8))
      (W13 m ρ c (Proc.devRef .tc main_v80)) = _
  rw [e1, e2, e3]
  exact (Bridge.classify_eq _ _ _ _).symm

end Cert.KernelIdeal.Net

end
-- ==== Proof.RefSide.lean ====
/-
  The reference program's stages, read as the layer functions the two programs share: its first projection is
  `project`, each scatter of scaled gathered rows is `aggregate` of the projection before it over the same three
  index-side arrays, each bias and `relu` is `activate`, and its last line is `classify`. Every equation holds by
  unfolding the stage's definition, for any float family; composed, the reference's result is `network`.
-/
import proofs.«168235_j5506148074002_1_alg».proof.Proof.RefRead
import proofs.«168235_j5506148074002_1_alg».proof.Proof.Graph

noncomputable section

namespace Cert.ReferenceIdeal.Layers

open Cert.ReferenceIdeal Cert.ReferenceIdeal.ReadP Cert.Graph Idealize.ShloMosaic

variable {F : FTy → Type} [FloatOps F]

theorem first_projection (x0 : (⟨S100000x128, .f32⟩ : BufTy).Contents (Elt F)) (x2 : (⟨S128x128, .f32⟩ : BufTy).Contents (Elt F)) :
    val_main_v32 (F := F) x0 x2 = project x0 x2 := rfl

theorem first_aggregate (x0 : (⟨S100000x128, .f32⟩ : BufTy).Contents (Elt F)) (x1 : (⟨S2x600000, .i32⟩ : BufTy).Contents (Elt F)) (x2 : (⟨S128x128, .f32⟩ : BufTy).Contents (Elt F)) :
    val_main_v45 (F := F) x0 x1 x2
      = aggregate (val_main_v3 (F := F) x1) (val_main_v6 (F := F) x1) (val_main_v31 (F := F) x1) (val_main_v32 (F := F) x0 x2) := rfl

theorem first_activation (x0 : (⟨S100000x128, .f32⟩ : BufTy).Contents (Elt F)) (x1 : (⟨S2x600000, .i32⟩ : BufTy).Contents (Elt F)) (x2 : (⟨S128x128, .f32⟩ : BufTy).Contents (Elt F)) (x3 : (⟨S128, .f32⟩ : BufTy).Contents (Elt F)) :
    val_main_v49 (F := F) x0 x1 x2 x3 = activate (val_main_v45 (F := F) x0 x1 x2) x3 := rfl

theorem second_projection (x0 : (⟨S100000x128, .f32⟩ : BufTy).Contents (Elt F)) (x1 : (⟨S2x600000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) :
    val_main_v50 (F := F) x0 x1 x2 x3 x4 = project (val_main_v49 (F := F) x0 x1 x2 x3) x4 := rfl

theorem second_aggregate (x0 : (⟨S100000x128, .f32⟩ : BufTy).Contents (Elt F)) (x1 : (⟨S2x600000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) :
    val_main_v63 (F := F) x0 x1 x2 x3 x4
      = aggregate (val_main_v3 (F := F) x1) (val_main_v6 (F := F) x1) (val_main_v31 (F := F) x1) (val_main_v50 (F := F) x0 x1 x2 x3 x4) := rfl

theorem second_activation (x0 : (⟨S100000x128, .f32⟩ : BufTy).Contents (Elt F)) (x1 : (⟨S2x600000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) :
    val_main_v67 (F := F) x0 x1 x2 x3 x4 x5 = activate (val_main_v63 (F := F) x0 x1 x2 x3 x4) x5 := rfl

theorem third_projection (x0 : (⟨S100000x128, .f32⟩ : BufTy).Contents (Elt F)) (x1 : (⟨S2x600000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) :
    val_main_v68 (F := F) x0 x1 x2 x3 x4 x5 x6 = project (val_main_v67 (F := F) x0 x1 x2 x3 x4 x5) x6 := rfl

theorem third_aggregate (x0 : (⟨S100000x128, .f32⟩ : BufTy).Contents (Elt F)) (x1 : (⟨S2x600000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) :
    val_main_v81 (F := F) x0 x1 x2 x3 x4 x5 x6
      = aggregate (val_main_v3 (F := F) x1) (val_main_v6 (F := F) x1) (val_main_v31 (F := F) x1) (val_main_v68 (F := F) x0 x1 x2 x3 x4 x5 x6) := rfl

theorem third_activation (x0 : (⟨S100000x128, .f32⟩ : BufTy).Contents (Elt F)) (x1 : (⟨S2x600000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) :
    val_main_v85 (F := F) x0 x1 x2 x3 x4 x5 x6 x7 = activate (val_main_v81 (F := F) x0 x1 x2 x3 x4 x5 x6) x7 := rfl

theorem head (x0 : (⟨S100000x128, .f32⟩ : BufTy).Contents (Elt F)) (x1 : (⟨S2x600000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x40, .f32⟩ : BufTy).Contents (Elt F)) (x9 : (⟨S40, .f32⟩ : BufTy).Contents (Elt F)) :
    val_main_v89 (F := F) x0 x1 x2 x3 x4 x5 x6 x7 x8 x9 = classify (val_main_v85 (F := F) x0 x1 x2 x3 x4 x5 x6 x7) x8 x9 := rfl

/-- The reference's result is the network over its own index-side arrays. -/
theorem result_eq (x0 : (⟨S100000x128, .f32⟩ : BufTy).Contents (Elt F)) (x1 : (⟨S2x600000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x40, .f32⟩ : BufTy).Contents (Elt F)) (x9 : (⟨S40, .f32⟩ : BufTy).Contents (Elt F)) :
    val_main_v89 (F := F) x0 x1 x2 x3 x4 x5 x6 x7 x8 x9
      = network (val_main_v3 (F := F) x1) (val_main_v6 (F := F) x1) (val_main_v31 (F := F) x1) x0 x2 x3 x4 x5 x6 x7 x8 x9 := by
  rw [head, third_activation, third_aggregate, third_projection, second_activation, second_aggregate, second_projection,
    first_activation, first_aggregate, first_projection]
  rfl

end Cert.ReferenceIdeal.Layers

end
-- ==== Proof.lean ====
/-
  A three-layer graph convolution with an output head, certified against its plain reference at the ideal values.

  The kernel program runs seven tiled regions: for each layer the product of the node rows with the layer's weights,
  then (after the host has gathered the projected rows along the edges and self-loops, scaled them by the symmetric
  degree normalisation and summed them into their destination rows) the bias added and the maximum with zero; last,
  the product with the classifier's weights plus its bias. The reference does the same with whole-array operations.
  At the ideal values narrowing to a shorter float format is the identity and a product into a zero accumulator is
  the exact row-by-column sum, so every tiled region leaves exactly the reference's whole-array stage: row `r` of a
  product depends on row `r` of the left operand only and the 20 blocks of 5000 rows tile the 100000 nodes. The host
  operations on the index side (edge list to sources, destinations and coefficients) and the gather, scale, scatter
  of each layer are the same operations in both programs and are carried as opaque functions. No law of the extended
  reals beyond the equality of the two sums is used, so the precondition is never opened.

  The frames of the two kernel programs are the generated ones; the reference's frame is its run with the result
  dropped. The idealized kernel program is the kernel program's own text read at the ideal values, so `preserves` is trivial.
-/
import proofs.«168235_j5506148074002_1_alg».proof.Defs
import proofs.«168235_j5506148074002_1_alg».proof.Proof.Gen.Kernel
import proofs.«168235_j5506148074002_1_alg».proof.Proof.Gen.Kernel.Skeleton
import proofs.«168235_j5506148074002_1_alg».proof.Proof.Gen.Kernel.Launch
import proofs.«168235_j5506148074002_1_alg».proof.Proof.Gen.Kernel.Points
import proofs.«168235_j5506148074002_1_alg».proof.Proof.Gen.Kernel.Frame
import proofs.«168235_j5506148074002_1_alg».proof.Proof.Gen.KernelIdeal
import proofs.«168235_j5506148074002_1_alg».proof.Proof.Gen.KernelIdeal.Skeleton
import proofs.«168235_j5506148074002_1_alg».proof.Proof.Gen.KernelIdeal.Launch
import proofs.«168235_j5506148074002_1_alg».proof.Proof.Gen.KernelIdeal.Points
import proofs.«168235_j5506148074002_1_alg».proof.Proof.Gen.KernelIdeal.Frame
import proofs.«168235_j5506148074002_1_alg».proof.Proof.Gen.ReferenceIdeal
import proofs.«168235_j5506148074002_1_alg».proof.Proof.Gen.Pre_finite_inputs
import proofs.«168235_j5506148074002_1_alg».proof.Proof.KernelRun
import proofs.«168235_j5506148074002_1_alg».proof.Proof.KernelValue
import proofs.«168235_j5506148074002_1_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference's run with its result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- Both programs end with the result array at the network of the launch arguments: the kernel's by its regions and
    host stretches, boundary by boundary; the reference's by reading its stages as the shared layer functions. -/
theorem algebraic : Cert.algebraic_KernelIdeal_ReferenceIdeal := by
  intro m ρ m' ρ' _ hagree
  refine ⟨fun c => Cert.Graph.network (Cert.KernelIdeal.Net.sI m c) (Cert.KernelIdeal.Net.dI m c) (Cert.KernelIdeal.Net.nI m c)
      (Cert.KernelIdeal.Net.a0 m c) (Cert.KernelIdeal.Net.a2 m c) (Cert.KernelIdeal.Net.a3 m c) (Cert.KernelIdeal.Net.a4 m c)
      (Cert.KernelIdeal.Net.a5 m c) (Cert.KernelIdeal.Net.a6 m c) (Cert.KernelIdeal.Net.a7 m c) (Cert.KernelIdeal.Net.a8 m c)
      (Cert.KernelIdeal.Net.a9 m c), ?_, ?_⟩
  · exact (θ_run Cert.KernelIdeal.defs _ _).mono
      (fun _ h c => ⟨(h c).1.trans (Cert.KernelIdeal.Net.result m ρ c), (h c).2⟩)
      (Cert.KernelIdeal.Out.run_out (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v89_eq, Cert.ReferenceIdeal.Layers.result_eq,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
